-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S2x4x8192 : Shape := ⟨3, ![2, 4, 8192]⟩
abbrev S4x512x3 : Shape := ⟨3, ![4, 512, 3]⟩
abbrev S4x512 : Shape := ⟨2, ![4, 512]⟩
abbrev S1x4x8192 : Shape := ⟨3, ![1, 4, 8192]⟩
abbrev S4x512x1 : Shape := ⟨3, ![4, 512, 1]⟩
abbrev S4x1x512 : Shape := ⟨3, ![4, 1, 512]⟩
abbrev S4x512x512 : Shape := ⟨3, ![4, 512, 512]⟩
abbrev S_ : Shape := ⟨0, ![]⟩
abbrev S4 : Shape := ⟨1, ![4]⟩

abbrev nBuf : Space → Nat
  | .hbm => 27
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S2x4x8192, .f32⟩
  | .hbm, ⟨4, _⟩ => ⟨S_, .f32⟩
  | .hbm, ⟨5, _⟩ => ⟨S4x8192, .f32⟩
  | .hbm, ⟨6, _⟩ => ⟨S_, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S4x512x3, .f32⟩
  | .local _ .vmem, ⟨1, _⟩ => ⟨S4x512x3, .f32⟩
  | .local _ .vmem, ⟨2, _⟩ => ⟨S4x8192x3, .f32⟩
  | .local _ .vmem, ⟨3, _⟩ => ⟨S4x512, .f32⟩
  | .local _ .vmem, ⟨4, _⟩ => ⟨S4x512, .f32⟩
  | .local _ .vmem, ⟨5, _⟩ => ⟨S1x4x8192, .f32⟩
  | .local _ .vmem, ⟨6, _⟩ => ⟨S1x4x8192, .f32⟩
  | .local _ .vmem, ⟨7, _⟩ => ⟨S4x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev main_cst_5 : Ref sig .tc := ⟨.hbm, 17, rfl⟩
abbrev main_v8 : Ref sig .tc := ⟨.hbm, 18, rfl⟩
abbrev main_v9 : Ref sig .tc := ⟨.hbm, 19, rfl⟩
abbrev main_cst_6 : Ref sig .tc := ⟨.hbm, 20, rfl⟩
abbrev main_v10 : Ref sig .tc := ⟨.hbm, 21, rfl⟩
abbrev main_cst_7 : Ref sig .tc := ⟨.hbm, 22, rfl⟩
abbrev main_v11 : Ref sig .tc := ⟨.hbm, 23, rfl⟩
abbrev main_v12 : Ref sig .tc := ⟨.hbm, 24, rfl⟩
abbrev main_cst_8 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c512_i32 : BitVec 32 := 512#32
  let v12 : BitVec 32 := Scalar.muli arg7 c512_i32
  v12
def k0_off1 (k0_t1 : Fin k0_t1_loop.trips) : Fin 3 → Nat :=
  let c0_9 : Index := 0#32
  let c0_i32_6 : BitVec 32 := 0#32
  let c1_i32 : BitVec 32 := 1#32
  let arg7 : BitVec 32 := Scf.iv c0_i32_6 c1_i32 k0_t1
  let c512_i32 : BitVec 32 := 512#32
  let v12 : BitVec 32 := Scalar.muli arg7 c512_i32
  let v13 : BitVec 32 := v12
  let v14 : Index := Scalar.indexCast v13
  let c0_10 : Index := 0#32
  ![0, v14.toNat, 0]
def k0_off2 (k0_t1 : Fin k0_t1_loop.trips) : Fin 2 → Nat :=
  let c0_19 : Index := 0#32
  let c0_i32_6 : BitVec 32 := 0#32
  let c1_i32 : BitVec 32 := 1#32
  let arg7 : BitVec 32 := Scf.iv c0_i32_6 c1_i32 k0_t1
  let c512_i32 : BitVec 32 := 512#32
  let v12 : BitVec 32 := Scalar.muli arg7 c512_i32
  let v13 : BitVec 32 := v12
  let v56 : Index := Scalar.indexCast v13
  ![0, v56.toNat]
def k0_cond2 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_8 : BitVec 32 := 0#32
  let v11 : BitVec 1 := Scalar.cmpi .ne v10 c0_i32_8
  v11

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4x512x3_S4x512x3_0_0_0 : ∀ a, (![0, 0, 0] : Fin 3 → Nat) a + S4x512x3.size a ≤ S4x512x3.size a
  h_S4x512x3 : 0 < S4x512x3.numel
  reduces_S4x512x3_S4x512 : S4x512x3.Reduces [2] S4x512
  inb_S4x512_S4x512_0_0 : ∀ a, (![0, 0] : Fin 2 → Nat) a + S4x512.size a ≤ S4x512.size a
  h_S4x512 : 0 < S4x512.numel
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  slices_S4x512x3_o0_0_0_S4x512x1 : S4x512x3.Slices ![0, 0, 0] S4x512x1
  shapeCasts_S4x512x1_S4x512 : S4x512x1.ShapeCasts S4x512
  shapeCasts_S4x512_S4x1x512 : S4x512.ShapeCasts S4x1x512
  broadcasts_S4x512x1_S4x512x512 : S4x512x1.Broadcasts S4x512x512
  broadcasts_S4x1x512_S4x512x512 : S4x1x512.Broadcasts S4x512x512
  slices_S4x512x3_o0_0_1_S4x512x1 : S4x512x3.Slices ![0, 0, 1] S4x512x1
  slices_S4x512x3_o0_0_2_S4x512x1 : S4x512x3.Slices ![0, 0, 2] S4x512x1
  shapeCasts_S4x512_S4x512x1 : S4x512.ShapeCasts S4x512x1
  shapeCasts_S4x512_S4x512 : S4x512.ShapeCasts S4x512
  reduces_S4x512x512_S4x512 : S4x512x512.Reduces [2] S4x512
  reduces_S4x512x512_S4x512_2 : S4x512x512.Reduces [1] S4x512
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  reducesTo_S2x4x8192_S4x8192_d0 : S2x4x8192.ReducesTo [0] S4x8192
  h_S_ : 0 < S_.numel
  reducesTo_S4x8192_S4_d1 : S4x8192.ReducesTo [1] S4
  bcast_S_S4 : S_.BroadcastsInDim S4 (![] : Fin 0 → Fin S4.rank)
  reducesTo_S4_S_d0 : S4.ReducesTo [0] S_
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S4x512x3.size a ≤ S4x8192x3.size a
  k0_off2_inb : ∀ k0_t1 : Fin k0_t1_loop.trips, ∀ a, (k0_off2 k0_t1) a + S4x512.size a ≤ S4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192x3.size a ≤ S4x8192x3.size a
  hwx0_1 : ∀ i : grid0.Coords, EltTy.bits .f32 = 32 ∨ (Rect.block (s := S4x8192x3) S4x8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8192.size a ≤ S2x4x8192.size a
  hwx0_3 : ∀ i : grid0.Coords, EltTy.bits .f32 = 32 ∨ (Rect.block (s := S2x4x8192) S1x4x8192.size (cc0_transform_3 i) (hinb0_3 i)).WholeWords (EltTy.packing .f32)

variable [Facts₀]

abbrev win0_0 : Pipeline.Window sig grid0 :=
  Pipeline.Window.ofSpec (Memref.whole main_arg0) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 46
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_cst_10 : Ref sig .tc := ⟨.hbm, 36, rfl⟩
abbrev main_v23 : Ref sig .tc := ⟨.hbm, 37, rfl⟩
abbrev main_v24 : Ref sig .tc := ⟨.hbm, 38, rfl⟩
abbrev main_cst_11 : Ref sig .tc := ⟨.hbm, 39, rfl⟩
abbrev main_v25 : Ref sig .tc := ⟨.hbm, 40, rfl⟩
abbrev main_cst_12 : Ref sig .tc := ⟨.hbm, 41, rfl⟩
abbrev main_v26 : Ref sig .tc := ⟨.hbm, 42, rfl⟩
abbrev main_v27 : Ref sig .tc := ⟨.hbm, 43, rfl⟩
abbrev main_cst_13 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The chamfer loss as one function of the two point clouds, over the extended reals.

  For clouds `P, T : [4, 8192, 3]` the squared distance of point `n` of `P` to point `m` of `T` in batch `b` is taken
  in the expanded form `max ((|P n|² + |T m|²) - 2 · ⟨P n, T m⟩) 0`; `rowMin` is its minimum over `m` (from `+∞`),
  `colMin` its minimum over `n`. A minimum is carried by its universal property: `c ≤ fold min b f ↔ c ≤ b ∧ ∀ k, c ≤ f k`.
-/
import Idealize.ShloMosaic.PureOps.Ideal
import Idealize.ShloMosaic.Lib.ValueIdx

noncomputable section

open scoped BigOperators

namespace Cert.Chamfer

open Idealize.ShloMosaic Idealize.ShloMosaic.ValueIdx

/-- A point cloud: four batches of 8192 points in three coordinates. -/
abbrev Cloud : Type := (⟨3, ![4, 8192, 3]⟩ : Shape).Idx → EReal

/-- The words of the three float literals both programs share. -/
abbrev wTwo : EReal := Ideal.ofBits .f32 0x40000000#32
abbrev wZero : EReal := Ideal.ofBits .f32 0x00000000#32
abbrev wInf : EReal := Ideal.ofBits .f32 0x7F800000#32

/-- The squared norm of point `n` of batch `b`. -/
def sqNorm (P : Cloud) (b : Fin 4) (n : Fin 8192) : EReal := ∑ d : Fin 3, P (ix3 b n d) * P (ix3 b n d)

/-- The inner product of point `n` of `P` and point `m` of `T`. -/
def inner (P T : Cloud) (b : Fin 4) (n m : Fin 8192) : EReal := ∑ d : Fin 3, P (ix3 b n d) * T (ix3 b m d)

/-- The clamped squared distance in its expanded form. -/
def sqDist (P T : Cloud) (b : Fin 4) (n m : Fin 8192) : EReal :=
  max ((sqNorm P b n + sqNorm T b m) - wTwo * inner P T b n m) wZero

/-- The nearest target to point `n` of `P`. -/
def rowMin (P T : Cloud) (b : Fin 4) (n : Fin 8192) : EReal :=
  (Finset.univ : Finset (Fin 8192)).fold min wInf (fun m => sqDist P T b n m)

/-- The nearest point of `P` to target `m`. -/
def colMin (P T : Cloud) (b : Fin 4) (m : Fin 8192) : EReal :=
  (Finset.univ : Finset (Fin 8192)).fold min wInf (fun n => sqDist P T b n m)

/-- The nearest point among the `h`-th half of `P` (points `4096·h … 4096·h + 4095`) to target `m`. -/
def halfColMin (P T : Cloud) (h : Fin 2) (b : Fin 4) (m : Fin 8192) : EReal :=
  (Finset.univ : Finset (Fin 4096)).fold min wInf
    (fun n => sqDist P T b ⟨4096 * h.val + n.val, by have := h.isLt; have := n.isLt; omega⟩ m)

/-- `rowMin` as an array over batch and point. -/
def rowMinArr (P T : Cloud) : (⟨2, ![4, 8192]⟩ : Shape).Idx → EReal :=
  fun i => rowMin P T ⟨(i 0).val, idx2_lt0 i⟩ ⟨(i 1).val, idx2_lt1 i⟩

/-- `colMin` as an array over batch and target. -/
def colMinArr (P T : Cloud) : (⟨2, ![4, 8192]⟩ : Shape).Idx → EReal :=
  fun i => colMin P T ⟨(i 0).val, idx2_lt0 i⟩ ⟨(i 1).val, idx2_lt1 i⟩

/-- `halfColMin` as an array over half, batch and target. -/
def halfColMinArr (P T : Cloud) : (⟨3, ![2, 4, 8192]⟩ : Shape).Idx → EReal :=
  fun i => halfColMin P T ⟨(i 0).val, (i 0).isLt⟩ ⟨(i 1).val, (i 1).isLt⟩ ⟨(i 2).val, (i 2).isLt⟩

/-- A lower bound of a fold of `min` is one of the start value and of every term. -/
theorem le_foldMin {ι : Type*} (s : Finset ι) (b : EReal) (f : ι → EReal) (c : EReal) :
    c ≤ s.fold min b f ↔ c ≤ b ∧ ∀ k ∈ s, c ≤ f k := Finset.le_fold_min c

/-- Two extended reals with the same lower bounds are equal. -/
theorem eq_of_lowerBounds {a b : EReal} (h : ∀ c, c ≤ a ↔ c ≤ b) : a = b := eq_of_forall_le_iff h

end Cert.Chamfer

end
-- ==== Proof.Tail.lean ====
/-
  What both programs do with the two arrays of nearest-neighbour distances: each array's mean over the 8192 points of a
  batch, then over the four batches (a sum from zero divided by the count, twice), the two means added, the sum multiplied by one.
  Stated once, as one function of the two arrays, so that neither side's copy is ever opened.
-/
import Idealize.ShloMosaic.PureOps.Ideal

noncomputable section

namespace Cert.Chamfer

open Idealize.ShloMosaic

/-- Per batch and point. -/
abbrev Sbn : Shape := ⟨2, ![4, 8192]⟩
/-- Per batch. -/
abbrev Sb : Shape := ⟨1, ![4]⟩
/-- A scalar. -/
abbrev S0 : Shape := ⟨0, ![]⟩

theorem red_bn_b : Sbn.ReducesTo [1] Sb := by decide
theorem red_b_0 : Sb.ReducesTo [0] S0 := by decide
theorem bc_0_b : S0.BroadcastsInDim Sb (![] : Fin 0 → Fin Sb.rank) := by decide
theorem pos_0 : 0 < S0.numel := by decide

/-- The mean over the points of each batch, then over the batches. -/
def batchMean (x : FVec Ideal Sbn .f32) : FVec Ideal S0 .f32 :=
  Host.divf
    (Host.reduceAdd
      (Host.divf (Host.reduceAdd x (constant S0 .f32 0x00000000#32) red_bn_b pos_0)
        (broadcastInDim Sb ![] bc_0_b (constant S0 .f32 0x46000000#32)))
      (constant S0 .f32 0x00000000#32) red_b_0 pos_0)
    (constant S0 .f32 0x40800000#32)

/-- The loss from the two arrays of nearest-neighbour distances. -/
def lossOf (a b : FVec Ideal Sbn .f32) : FVec Ideal S0 .f32 :=
  mulf (constant S0 .f32 0x3F800000#32) (addf (batchMean a) (batchMean b))

end Cert.Chamfer

end
-- ==== Proof.RefValue.lean ====
/-
  The reference computes the specification.

  Read at one index, the reference's clamped squared distance `max ((|P n|² + |T m|²) - 2 · ⟨P n, T m⟩) 0` is the
  specification's `sqDist`: each squared norm is a sum from zero over the three coordinates, the inner product is the
  contraction over them, and the broadcasts only re-index. A minimum-reduction over one axis is the fold of `min` from
  `+∞` over that axis's coordinates, so the two reductions are `rowMin` and `colMin`; what follows them is the shared
  tail, applied to those two arrays.
-/
import proofs.«134601_j6528350290147_1_alg».proof.Proof.Gen.ReferenceIdeal.Read
import proofs.«134601_j6528350290147_1_alg».proof.Proof.Spec
import proofs.«134601_j6528350290147_1_alg».proof.Proof.Tail
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Cert.Chamfer
open Idealize.ShloMosaic Idealize.ShloMosaic.ValueIdx

/-- The first squared-norm stage at batch `b`, point `n`. -/
theorem v1_at (x0 : (⟨S4x8192x3, .f32⟩ : BufTy).Contents (Elt Ideal)) (b : Fin 4) (n : Fin 8192) :
    val_main_v1 (F := Ideal) x0 (ix2 b n) = sqNorm x0 b n := by
  rw [val_main_v1_apply]
  show Ideal.ofBits .f32 0x00000000#32 + _ = _
  rw [Ideal.ofBits_zero_f32, zero_add]
  unfold sqNorm
  refine Finset.sum_congr rfl fun d _ => ?_
  rw [val_main_v0_apply]
  have e : idx_main_v1 (ix2 b n) d = ix3 b n d :=
    funext fun a => Fin.ext (by match a with | ⟨0, _⟩ => rfl | ⟨1, _⟩ => rfl | ⟨2, _⟩ => rfl)
  rw [e]
  rfl

/-- The second squared-norm stage at batch `b`, target `m`. -/
theorem v3_at (x1 : (⟨S4x8192x3, .f32⟩ : BufTy).Contents (Elt Ideal)) (b : Fin 4) (m : Fin 8192) :
    val_main_v3 (F := Ideal) x1 (ix2 b m) = sqNorm x1 b m := by
  rw [val_main_v3_apply]
  show Ideal.ofBits .f32 0x00000000#32 + _ = _
  rw [Ideal.ofBits_zero_f32, zero_add]
  unfold sqNorm
  refine Finset.sum_congr rfl fun d _ => ?_
  rw [val_main_v2_apply]
  have e : idx_main_v3 (ix2 b m) d = ix3 b m d :=
    funext fun a => Fin.ext (by match a with | ⟨0, _⟩ => rfl | ⟨1, _⟩ => rfl | ⟨2, _⟩ => rfl)
  rw [e]
  rfl

/-- The contraction stage at batch `b`, point `n`, target `m`. -/
theorem v4_at (x0 x1 : (⟨S4x8192x3, .f32⟩ : BufTy).Contents (Elt Ideal)) (b : Fin 4) (n m : Fin 8192) :
    val_main_v4 (F := Ideal) x0 x1 (ix3 b n m) = Cert.Chamfer.inner x0 x1 b n m := by
  rw [val_main_v4_apply]
  unfold Cert.Chamfer.inner
  refine Finset.sum_congr rfl fun d _ => ?_
  have el : lidx_main_v4 (ix3 b n m) d = ix3 b n d :=
    funext fun a => Fin.ext (by match a with | ⟨0, _⟩ => rfl | ⟨1, _⟩ => rfl | ⟨2, _⟩ => rfl)
  have er : ridx_main_v4 (ix3 b n m) d = ix3 b m d :=
    funext fun a => Fin.ext (by match a with | ⟨0, _⟩ => rfl | ⟨1, _⟩ => rfl | ⟨2, _⟩ => rfl)
  rw [el, er]

/-- The clamped squared distance stage at batch `b`, point `n`, target `m`. -/
theorem v14_at (x0 x1 : (⟨S4x8192x3, .f32⟩ : BufTy).Contents (Elt Ideal)) (b : Fin 4) (n m : Fin 8192) :
    val_main_v14 (F := Ideal) x0 x1 (ix3 b n m) = sqDist x0 x1 b n m := by
  rw [val_main_v14_apply, val_main_v12_apply, val_main_v9_apply, val_main_v7_apply, val_main_v5_apply,
    val_main_v8_apply, val_main_v6_apply, val_main_v11_apply, val_main_v10_apply, val_main_v13_apply,
    val_main_cst_1_apply, val_main_cst_2_apply]
  have e1 : idx_main_v5 (idx_main_v7 (ix3 b n m)) = ix2 b n :=
    funext fun a => Fin.ext (by match a with | ⟨0, _⟩ => rfl | ⟨1, _⟩ => rfl)
  have e3 : idx_main_v6 (idx_main_v8 (ix3 b n m)) = ix2 b m :=
    funext fun a => Fin.ext (by match a with | ⟨0, _⟩ => rfl | ⟨1, _⟩ => rfl)
  rw [e1, e3, v1_at, v3_at, v4_at]
  rfl

/-- The source index over `(b, n)` with `m` inserted on the last axis. -/
theorem lift2_eq (h : S4x8192x8192.Reduces [2] S4x8192) (b : Fin 4) (n m : Fin 8192) :
    h.lift (ix2 b n) m = ix3 b n m :=
  funext fun a => Fin.ext (by match a with | ⟨0, _⟩ => rfl | ⟨1, _⟩ => rfl | ⟨2, _⟩ => rfl)

/-- The source index over `(b, m)` with `n` inserted on the middle axis. -/
theorem lift1_eq (h : S4x8192x8192.Reduces [1] S4x8192) (b : Fin 4) (m n : Fin 8192) :
    h.lift (ix2 b m) n = ix3 b n m :=
  funext fun a => Fin.ext (by match a with | ⟨0, _⟩ => rfl | ⟨1, _⟩ => rfl | ⟨2, _⟩ => rfl)

/-- The reference's row minima are the specification's. -/
theorem rowMin_eq (x0 x1 : (⟨Cert.ReferenceIdeal.S4x8192x3, .f32⟩ : BufTy).Contents (Elt Ideal)) :
    Cert.ReferenceIdeal.Read.val_main_v15 (F := Ideal) x0 x1 = Cert.Chamfer.rowMinArr x0 x1 := by
  funext i
  obtain ⟨b, n, rfl⟩ : ∃ (b : Fin 4) (n : Fin 8192), i = ix2 b n := ⟨i 0, i 1, eq_ix2 i⟩
  have h : S4x8192x8192.Reduces [2] S4x8192 := by decide
  unfold val_main_v15
  rw [Host.reduce_eq_fold_single FloatOps.minimumf _ _ reducesTo_S4x8192x8192_S4x8192_d2 h h_S_ (ix2 b n)]
  show (Finset.univ : Finset (Fin 8192)).fold min wInf _ = rowMin x0 x1 b n
  unfold rowMin
  refine congrArg (fun f : Fin 8192 → EReal => Finset.fold min wInf f Finset.univ) (funext fun (m : Fin 8192) => ?_)
  exact (congrArg (val_main_v14 (F := Ideal) x0 x1) (lift2_eq h b n m)).trans (v14_at x0 x1 b n m)

/-- The reference's column minima are the specification's. -/
theorem colMin_eq (x0 x1 : (⟨Cert.ReferenceIdeal.S4x8192x3, .f32⟩ : BufTy).Contents (Elt Ideal)) :
    Cert.ReferenceIdeal.Read.val_main_v16 (F := Ideal) x0 x1 = Cert.Chamfer.colMinArr x0 x1 := by
  funext i
  obtain ⟨b, m, rfl⟩ : ∃ (b : Fin 4) (m : Fin 8192), i = ix2 b m := ⟨i 0, i 1, eq_ix2 i⟩
  have h : S4x8192x8192.Reduces [1] S4x8192 := by decide
  unfold val_main_v16
  rw [Host.reduce_eq_fold_single FloatOps.minimumf _ _ reducesTo_S4x8192x8192_S4x8192_d1 h h_S_ (ix2 b m)]
  show (Finset.univ : Finset (Fin 8192)).fold min wInf _ = colMin x0 x1 b m
  unfold colMin
  refine congrArg (fun f : Fin 8192 → EReal => Finset.fold min wInf f Finset.univ) (funext fun (n : Fin 8192) => ?_)
  exact (congrArg (val_main_v14 (F := Ideal) x0 x1) (lift1_eq h b m n)).trans (v14_at x0 x1 b n m)

/-- The reference's result is the shared tail of its own two reductions. -/
theorem result_tail (x0 x1 : (⟨Cert.ReferenceIdeal.S4x8192x3, .f32⟩ : BufTy).Contents (Elt Ideal)) :
    Cert.ReferenceIdeal.Read.val_main_v28 (F := Ideal) x0 x1
      = Cert.Chamfer.lossOf (val_main_v15 (F := Ideal) x0 x1) (val_main_v16 (F := Ideal) x0 x1) := rfl

/-- The reference's result is the loss of the specification's two arrays. -/
theorem result_eq (x0 x1 : (⟨Cert.ReferenceIdeal.S4x8192x3, .f32⟩ : BufTy).Contents (Elt Ideal)) :
    Cert.ReferenceIdeal.Read.val_main_v28 (F := Ideal) x0 x1
      = Cert.Chamfer.lossOf (Cert.Chamfer.rowMinArr x0 x1) (Cert.Chamfer.colMinArr x0 x1) := by
  rw [result_tail, rowMin_eq, colMin_eq]

end Cert.ReferenceIdeal.RefValue

end
-- ==== Proof.TripValue.lean ====
/-
  One trip of the kernel body's loop over the second cloud's sixteen chunks of 512 points: what it stores.
  The trip reads its chunk, forms the 512 × 512 tile of clamped squared distances between the point's 512 points of the
  first cloud and the chunk, and lowers two running minima by it: the row-minimum block (whole) along the tile's columns,
  and the trip's 512 columns of the column-minimum scratch along the tile's rows.
-/
import proofs.«134601_j6528350290147_1_alg».proof.Proof.Gen.KernelIdeal.Frame
import Idealize.ShloMosaic.Lib.Pipeline.Value

set_option maxRecDepth 16384

noncomputable section

namespace Cert.KernelIdeal.TripValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The chunk of the target cloud the loop's trip `k` loads: rows `512·k … 512·k + 511` of every batch. -/
abbrev tgtChunk (arg3 : Memref sig .tc .vmem S4x8192x3 .f32) (X3 : BufTy.Contents (Elt F) arg3.view.ty) (k : Fin k0_t1_loop.trips) :
    Vec F S4x512x3 .f32 :=
  View.readAt (Elt F) arg3.view (Rect.unit (s := S4x8192x3) (k0_off1 k) S4x512x3.size (k0_off1_inb k)).toLoadRect X3

/-- ONE TRIP's two stores. Into the row-minimum block, whole: the block as the trip finds it, lowered by the trip's chunk
    of distances along the chunk's axis. Into the column-minimum scratch, columns `512·k … 512·k + 511`: those columns
    as the trip finds them, lowered by the same distances along the row axis. -/
theorem trip_pieces (𝒱 : Variants) (c : Dev nD) (bd : Option 𝒱.V) (i : grid0.Coords) (arg2 : Memref sig .tc .vmem S4x512x3 .f32) (harg2 : arg2.IsWhole) (arg3 : Memref sig .tc .vmem S4x8192x3 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole) (v0 : Vec F S4x512x3 .f32)
    (X3 : BufTy.Contents (Elt F) arg3.view.ty) (k : Fin k0_t1_loop.trips)
    (f4 : BufTy.Contents (Elt F) arg4.view.ty) (f6 : BufTy.Contents (Elt F) arg6.view.ty) :
    tripL_k0_t1 (F := F) 𝒱 c bd i arg2 harg2 arg3 harg3 arg4 harg4 arg5 harg5 arg6 harg6 v0 X3 k f4 f6
      = ([⟨Rect.unit (s := S4x512) ![0, 0] S4x512.size inb_S4x512_S4x512_0_0,
            k0_pay7 v0 (k0_pay1 v0) (tgtChunk arg3 X3 k)
              (View.readAt (Elt F) arg4.view (Rect.unit (s := S4x512) ![0, 0] S4x512.size inb_S4x512_S4x512_0_0).toLoadRect f4)⟩],
         [⟨Rect.unit (s := S4x8192) (k0_off2 k) S4x512.size (k0_off2_inb k),
            k0_pay4 (k0_pay6 v0 (k0_pay1 v0) (tgtChunk arg3 X3 k))
              (View.readAt (Elt F) arg6.view (Rect.unit (s := S4x8192) (k0_off2 k) S4x512.size (k0_off2_inb k)).toLoadRect f6)⟩]) := by
  unfold tripL_k0_t1 trip_k0_t1
  dsimp only
  sl_unfold_words
  rfl

end Cert.KernelIdeal.TripValue
end
-- ==== Proof.LoopValue.lean ====
/-
  The chunk loop as two recurrences over the trip count: the row-minimum block and the column-minimum scratch after the
  first `k` trips, each in terms of what it held after `k − 1`.
-/
import proofs.«134601_j6528350290147_1_alg».proof.Proof.TripValue
import Idealize.ShloMosaic.Lib.WritesUnit
import Idealize.ShloMosaic.Lib.Pipeline.Value

set_option maxRecDepth 16384

noncomputable section

namespace Cert.KernelIdeal.LoopValue

open Cert.KernelIdeal Cert.KernelIdeal.Gen Cert.KernelIdeal.TripValue
open Idealize.ShloMosaic Idealize.ShloMosaic.TcCoe
open Idealize.SL Idealize.SL.Sem

variable {F : FTy → Type} [FloatOps F]

/-! ## The loop over the target's chunks, as two recurrences

Each trip stores once into the row-minimum block (whole) and once into the column-minimum scratch (the trip's 512
columns). What the two buffers hold after the first `k` trips, over the contents `G4`, `G6` they held at loop entry,
therefore obeys: the block after trip `k` is the body's update of the block before it; the scratch after trip `k` is
the body's update on the trip's columns and unchanged elsewhere. -/

section
variable (𝒱 : Variants) (c : Dev nD) (bd : Option 𝒱.V) (i : grid0.Coords) (arg2 : Memref sig .tc .vmem S4x512x3 .f32) (harg2 : arg2.IsWhole) (arg3 : Memref sig .tc .vmem S4x8192x3 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)
  (v0 : Vec F S4x512x3 .f32) (X3 : BufTy.Contents (Elt F) arg3.view.ty)
  (G4 : BufTy.Contents (Elt F) arg4.view.ty) (G6 : BufTy.Contents (Elt F) arg6.view.ty)

/-- The row-minimum block after the first `k` trips. -/
def rowsAfter (k : ℕ) : Vec F S4x512 .f32 :=
  arg4.view.read (Elt F) (arg4.view.writes (Elt F) G4 (pb_k0_t1 (F := F) 𝒱 c bd i arg2 harg2 arg3 harg3 arg4 harg4 arg5 harg5 arg6 harg6 v0 X3 G4 G6 k).1)

/-- The column-minimum scratch after the first `k` trips. -/
def colsAfter (k : ℕ) : Vec F S4x8192 .f32 :=
  arg6.view.read (Elt F) (arg6.view.writes (Elt F) G6 (pb_k0_t1 (F := F) 𝒱 c bd i arg2 harg2 arg3 harg3 arg4 harg4 arg5 harg5 arg6 harg6 v0 X3 G4 G6 k).2)

theorem rowsAfter_zero : rowsAfter 𝒱 c bd i arg2 harg2 arg3 harg3 arg4 harg4 arg5 harg5 arg6 harg6 v0 X3 G4 G6 0 = arg4.view.read (Elt F) G4 := rfl

theorem colsAfter_zero : colsAfter 𝒱 c bd i arg2 harg2 arg3 harg3 arg4 harg4 arg5 harg5 arg6 harg6 v0 X3 G4 G6 0 = arg6.view.read (Elt F) G6 := rfl

/-- The trip's tile of distances. -/
abbrev tile (k : Fin k0_t1_loop.trips) : FVec F S4x512x512 .f32 :=
  k0_pay6 v0 (k0_pay1 v0) (tgtChunk arg3 X3 k)

theorem hz2 : (![0, 0] : Fin 2 → Nat) = fun _ => 0 := funext fun a => by
  match a with
  | ⟨0, _⟩ => rfl
  | ⟨1, _⟩ => rfl

/-- After trip `k` the block is the body's update of the block before it. -/
theorem rowsAfter_succ (k : Fin k0_t1_loop.trips) :
    rowsAfter 𝒱 c bd i arg2 harg2 arg3 harg3 arg4 harg4 arg5 harg5 arg6 harg6 v0 X3 G4 G6 (k.val + 1)
      = k0_pay7 v0 (k0_pay1 v0) (tgtChunk arg3 X3 k) (rowsAfter 𝒱 c bd i arg2 harg2 arg3 harg3 arg4 harg4 arg5 harg5 arg6 harg6 v0 X3 G4 G6 k.val) := by
  unfold rowsAfter
  rw [pb_k0_t1_succ, trip_pieces]
  dsimp only
  rw [List.singleton_append]
  funext y
  refine (View.read_writes_cons_unit_of_mem arg4.view G4 inb_S4x512_S4x512_0_0 _ _ y y rfl (fun a => ?_)).trans ?_
  · match a with
    | ⟨0, _⟩ => exact (Nat.zero_add _).symm
    | ⟨1, _⟩ => exact (Nat.zero_add _).symm
  · rw [View.readAt_eq_ld, View.ld_unit_zero (S := S4x512) hz2]

/-- After trip `k`, on the trip's columns the scratch is the body's update of those columns as the trip found them. -/
theorem colsAfter_succ_in (k : Fin k0_t1_loop.trips) (y : S4x8192.Idx) (x : S4x512.Idx)
    (hx0 : (y 0).val = (x 0).val) (hx1 : (y 1).val = 512 * k.val + (x 1).val) :
    colsAfter 𝒱 c bd i arg2 harg2 arg3 harg3 arg4 harg4 arg5 harg5 arg6 harg6 v0 X3 G4 G6 (k.val + 1) y
      = k0_pay4 (tile arg3 v0 X3 k)
          (View.ld (colsAfter 𝒱 c bd i arg2 harg2 arg3 harg3 arg4 harg4 arg5 harg5 arg6 harg6 v0 X3 G4 G6 k.val) (Rect.unit (s := S4x8192) (k0_off2 k) S4x512.size (k0_off2_inb k))) x := by
  unfold colsAfter
  rw [pb_k0_t1_succ, trip_pieces]
  dsimp only
  rw [List.singleton_append]
  refine (View.read_writes_cons_unit_of_mem arg6.view G6 (k0_off2_inb k) _ _ y x (k0_off2_eq k) (fun a => ?_)).trans ?_
  · match a with
    | ⟨0, _⟩ => exact hx0.trans (Nat.zero_add _).symm
    | ⟨1, _⟩ => exact hx1
  · rw [View.readAt_eq_ld]

/-- After trip `k`, off the trip's columns the scratch is as the trip found it. -/
theorem colsAfter_succ_out (k : Fin k0_t1_loop.trips) (y : S4x8192.Idx)
    (h : (y 1).val < 512 * k.val ∨ 512 * k.val + 512 ≤ (y 1).val) :
    colsAfter 𝒱 c bd i arg2 harg2 arg3 harg3 arg4 harg4 arg5 harg5 arg6 harg6 v0 X3 G4 G6 (k.val + 1) y = colsAfter 𝒱 c bd i arg2 harg2 arg3 harg3 arg4 harg4 arg5 harg5 arg6 harg6 v0 X3 G4 G6 k.val y := by
  unfold colsAfter
  rw [pb_k0_t1_succ, trip_pieces]
  dsimp only
  rw [List.singleton_append]
  exact View.read_writes_cons_unit_of_not_mem arg6.view G6 (k0_off2_inb k) _ _ y (k0_off2_eq k) (1 : Fin 2) h

/-- A read of the scratch's columns of trip `k` at a local index is the scratch at the matching index. -/
theorem ld_cols_apply (X : Vec F S4x8192 .f32) (k : Fin k0_t1_loop.trips) (x : S4x512.Idx) (y : S4x8192.Idx)
    (hx0 : (y 0).val = (x 0).val) (hx1 : (y 1).val = 512 * k.val + (x 1).val) :
    View.ld X (Rect.unit (s := S4x8192) (k0_off2 k) S4x512.size (k0_off2_inb k)) x = X y := by
  show X ((Rect.unit (s := S4x8192) (k0_off2 k) S4x512.size (k0_off2_inb k)).emb x) = X y
  refine congrArg X (funext fun a => Fin.ext ?_)
  show (k0_off2 k) a + 1 * (x a).val = (y a).val
  rw [k0_off2_eq k]
  match a with
  | ⟨0, _⟩ => show 0 + 1 * (x 0).val = (y 0).val; omega
  | ⟨1, _⟩ => show 512 * k.val + 1 * (x 1).val = (y 1).val; omega

/-- The loop runs sixteen trips. -/
theorem trips_eq : k0_t1_loop.trips = 16 := by decide

end

end Cert.KernelIdeal.LoopValue
end
-- ==== Proof.CaseValue.lean ====
/-
  The three kinds of grid point — first of a half (the scratch is refilled with `+∞`), middle, last of a half (the scratch is
  copied out) — and what each leaves in the row-minimum block, the scratch and the second output's block, as the chunk
  loop's sixteenth iterate.
-/
import proofs.«134601_j6528350290147_1_alg».proof.Proof.LoopValue

set_option maxRecDepth 16384

noncomputable section

namespace Cert.KernelIdeal.CaseValue

open Cert.KernelIdeal Cert.KernelIdeal.Gen Cert.KernelIdeal.TripValue Cert.KernelIdeal.LoopValue
open Idealize.ShloMosaic Idealize.ShloMosaic.TcCoe
open Idealize.SL Idealize.SL.Sem

variable {F : FTy → Type} [FloatOps F]

/-! ## What each case of the body leaves, through the loop's recurrences

At every grid point the body first fills the row-minimum block with `+∞`; at the first point of a half it also fills the
column-minimum scratch with `+∞`; then the loop runs; at the last point of a half the scratch is copied to the second
output. So in every case the block ends as the loop's sixteenth iterate from `+∞`, the scratch as the loop's sixteenth
iterate from `+∞` (first point of a half) or from what the point before left (the other points). -/

theorem hz3 : (![0, 0, 0] : Fin 3 → Nat) = fun _ => 0 := funext fun a => by
  match a with
  | ⟨0, _⟩ => rfl
  | ⟨1, _⟩ => rfl
  | ⟨2, _⟩ => rfl

/-- The block's buffer once the `+∞` fill has been stored. -/
abbrev filled4 (arg4 : Memref sig .tc .vmem S4x512 .f32) : BufTy.Contents (Elt F) arg4.view.ty :=
  arg4.view.writes (Elt F) arg4.view.junk [⟨Rect.unit (s := S4x512) ![0, 0] S4x512.size inb_S4x512_S4x512_0_0, k0_pay2⟩]

/-- The scratch buffer once the `+∞` fill has been stored. -/
abbrev filled6 (arg6 : Memref sig .tc .vmem S4x8192 .f32) : BufTy.Contents (Elt F) arg6.view.ty :=
  arg6.view.writes (Elt F) arg6.view.junk [⟨Rect.unit (s := S4x8192) ![0, 0] S4x8192.size inb_S4x8192_S4x8192_0_0, k0_pay3⟩]

theorem read_filled4 (arg4 : Memref sig .tc .vmem S4x512 .f32) :
    arg4.view.read (Elt F) (filled4 (F := F) arg4) = k0_pay2 := by
  funext y
  refine View.read_writes_cons_unit_of_mem arg4.view _ inb_S4x512_S4x512_0_0 _ _ y y rfl (fun a => ?_)
  match a with
  | ⟨0, _⟩ => exact (Nat.zero_add _).symm
  | ⟨1, _⟩ => exact (Nat.zero_add _).symm

theorem read_filled6 (arg6 : Memref sig .tc .vmem S4x8192 .f32) :
    arg6.view.read (Elt F) (filled6 (F := F) arg6) = k0_pay3 := by
  funext y
  refine View.read_writes_cons_unit_of_mem arg6.view _ inb_S4x8192_S4x8192_0_0 _ _ y y rfl (fun a => ?_)
  match a with
  | ⟨0, _⟩ => exact (Nat.zero_add _).symm
  | ⟨1, _⟩ => exact (Nat.zero_add _).symm

/-- A whole read of the staged block of the first cloud returns it. -/
theorem readAt_whole2 (arg2 : Memref sig .tc .vmem S4x512x3 .f32) (harg2 : arg2.IsWhole) (x0 : Vec F S4x512x3 .f32) :
    View.readAt (Elt F) arg2.view (Rect.unit (s := S4x512x3) ![0, 0, 0] S4x512x3.size inb_S4x512x3_S4x512x3_0_0_0).toLoadRect (harg2.unread x0) = x0 := by
  rw [View.readAt_eq_ld, harg2.read_unread, View.ld_unit_zero (S := S4x512x3) hz3]

section
variable (c : Dev nD) (i : grid0.Coords) (arg2 : Memref sig .tc .vmem S4x512x3 .f32) (harg2 : arg2.IsWhole) (arg3 : Memref sig .tc .vmem S4x8192x3 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)

/-- Case A (first point of a half), the block. -/
theorem out_A_2 (hc0 : cond0_0 i) (hc1 : ¬cond0_1 i) (x0 : Vec F S4x512x3 .f32) (x1 : Vec F S4x8192x3 .f32) :
    out0_A_2 c i arg2 harg2 arg3 harg3 arg4 harg4 arg5 harg5 arg6 harg6 hc0 hc1 x0 x1
      = rowsAfter Variants.none c none i arg2 harg2 arg3 harg3 arg4 harg4 arg5 harg5 arg6 harg6 x0 (harg3.unread x1) (filled4 arg4) (filled6 arg6) k0_t1_loop.trips := by
  unfold out0_A_2
  rw [View.read_writes_of_cover VO0_2 _ arg4.view arg4.view.junk _ (cover0_A_2 c i arg2 harg2 arg3 harg3 arg4 harg4 arg5 harg5 arg6 harg6 hc0 hc1 x0 x1)]
  unfold kernelRun0_A
  dsimp only
  sl_unfold_words
  rw [View.writes_append, readAt_whole2]
  rfl

/-- Case A, the scratch. -/
theorem sout_A_0 (hc0 : cond0_0 i) (hc1 : ¬cond0_1 i) (x0 : Vec F S4x512x3 .f32) (x1 : Vec F S4x8192x3 .f32) :
    sout0_A_0 c i arg2 harg2 arg3 harg3 arg4 harg4 arg5 harg5 arg6 harg6 hc0 hc1 x0 x1
      = colsAfter Variants.none c none i arg2 harg2 arg3 harg3 arg4 harg4 arg5 harg5 arg6 harg6 x0 (harg3.unread x1) (filled4 arg4) (filled6 arg6) k0_t1_loop.trips := by
  unfold sout0_A_0
  rw [View.read_writes_of_cover VS0_0 _ arg6.view arg6.view.junk _ (scover0_A_0 c i arg2 harg2 arg3 harg3 arg4 harg4 arg5 harg5 arg6 harg6 hc0 hc1 x0 x1)]
  unfold kernelRun0_A
  dsimp only
  sl_unfold_words
  rw [View.writes_append, readAt_whole2]
  rfl

/-- Case B (a middle point of a half), the block. -/
theorem out_B_2 (hc0 : ¬cond0_0 i) (hc1 : ¬cond0_1 i) (x0 : Vec F S4x512x3 .f32) (x1 : Vec F S4x8192x3 .f32) (xs0 : Vec F S4x8192 .f32) :
    out0_B_2 c i arg2 harg2 arg3 harg3 arg4 harg4 arg5 harg5 arg6 harg6 hc0 hc1 x0 x1 xs0
      = rowsAfter Variants.none c none i arg2 harg2 arg3 harg3 arg4 harg4 arg5 harg5 arg6 harg6 x0 (harg3.unread x1) (filled4 arg4) (harg6.unread xs0) k0_t1_loop.trips := by
  unfold out0_B_2
  rw [View.read_writes_of_cover VO0_2 _ arg4.view arg4.view.junk _ (cover0_B_2 c i arg2 harg2 arg3 harg3 arg4 harg4 arg5 harg5 arg6 harg6 hc0 hc1 x0 x1 xs0)]
  unfold kernelRun0_B
  dsimp only
  sl_unfold_words
  rw [View.writes_append, readAt_whole2]
  rfl

/-- Case B, the scratch: the loop's iterate from what the point before left. -/
theorem sout_B_0 (hc0 : ¬cond0_0 i) (hc1 : ¬cond0_1 i) (x0 : Vec F S4x512x3 .f32) (x1 : Vec F S4x8192x3 .f32) (xs0 : Vec F S4x8192 .f32) :
    sout0_B_0 c i arg2 harg2 arg3 harg3 arg4 harg4 arg5 harg5 arg6 harg6 hc0 hc1 x0 x1 xs0
      = colsAfter Variants.none c none i arg2 harg2 arg3 harg3 arg4 harg4 arg5 harg5 arg6 harg6 x0 (harg3.unread x1) (filled4 arg4) (harg6.unread xs0) k0_t1_loop.trips := by
  unfold sout0_B_0
  rw [View.read_writes_of_cover VS0_0 _ arg6.view (harg6.unread xs0) _ (scover0_B_0 c i arg2 harg2 arg3 harg3 arg4 harg4 arg5 harg5 arg6 harg6 hc0 hc1 x0 x1 xs0)]
  unfold kernelRun0_B
  dsimp only
  sl_unfold_words
  rw [readAt_whole2]
  rfl

/-- Case C (last point of a half), the block. -/
theorem out_C_2 (hc0 : ¬cond0_0 i) (hc1 : cond0_1 i) (x0 : Vec F S4x512x3 .f32) (x1 : Vec F S4x8192x3 .f32) (xs0 : Vec F S4x8192 .f32) :
    out0_C_2 c i arg2 harg2 arg3 harg3 arg4 harg4 arg5 harg5 arg6 harg6 hc0 hc1 x0 x1 xs0
      = rowsAfter Variants.none c none i arg2 harg2 arg3 harg3 arg4 harg4 arg5 harg5 arg6 harg6 x0 (harg3.unread x1) (filled4 arg4) (harg6.unread xs0) k0_t1_loop.trips := by
  unfold out0_C_2
  rw [View.read_writes_of_cover VO0_2 _ arg4.view arg4.view.junk _ (cover0_C_2 c i arg2 harg2 arg3 harg3 arg4 harg4 arg5 harg5 arg6 harg6 hc0 hc1 x0 x1 xs0)]
  unfold kernelRun0_C
  dsimp only
  sl_unfold_words
  rw [View.writes_append, readAt_whole2]
  rfl

/-- Case C, the scratch. -/
theorem sout_C_0 (hc0 : ¬cond0_0 i) (hc1 : cond0_1 i) (x0 : Vec F S4x512x3 .f32) (x1 : Vec F S4x8192x3 .f32) (xs0 : Vec F S4x8192 .f32) :
    sout0_C_0 c i arg2 harg2 arg3 harg3 arg4 harg4 arg5 harg5 arg6 harg6 hc0 hc1 x0 x1 xs0
      = colsAfter Variants.none c none i arg2 harg2 arg3 harg3 arg4 harg4 arg5 harg5 arg6 harg6 x0 (harg3.unread x1) (filled4 arg4) (harg6.unread xs0) k0_t1_loop.trips := by
  unfold sout0_C_0
  rw [View.read_writes_of_cover VS0_0 _ arg6.view (harg6.unread xs0) _ (scover0_C_0 c i arg2 harg2 arg3 harg3 arg4 harg4 arg5 harg5 arg6 harg6 hc0 hc1 x0 x1 xs0)]
  unfold kernelRun0_C
  dsimp only
  sl_unfold_words
  rw [readAt_whole2]
  rfl

/-- Case C, the second output's block: the scratch after the loop, under a leading unit axis. -/
theorem out_C_3 (hc0 : ¬cond0_0 i) (hc1 : cond0_1 i) (x0 : Vec F S4x512x3 .f32) (x1 : Vec F S4x8192x3 .f32) (xs0 : Vec F S4x8192 .f32) :
    out0_C_3 c i arg2 harg2 arg3 harg3 arg4 harg4 arg5 harg5 arg6 harg6 hc0 hc1 x0 x1 xs0
      = k0_pay5 (colsAfter Variants.none c none i arg2 harg2 arg3 harg3 arg4 harg4 arg5 harg5 arg6 harg6 x0 (harg3.unread x1) (filled4 arg4) (harg6.unread xs0) k0_t1_loop.trips) := by
  unfold out0_C_3
  unfold kernelRun0_C
  dsimp only
  sl_unfold_words
  funext y
  refine (View.read_writes_cons_unit_of_mem VO0_3 _ inb_S1x4x8192_S1x4x8192_0_0_0 _ _ y y rfl (fun a => ?_)).trans ?_
  · match a with
    | ⟨0, _⟩ => exact (Nat.zero_add _).symm
    | ⟨1, _⟩ => exact (Nat.zero_add _).symm
    | ⟨2, _⟩ => exact (Nat.zero_add _).symm
  · rw [View.readAt_eq_ld, View.ld_unit_zero (S := S4x8192) hz2, readAt_whole2]
    rfl

end

end Cert.KernelIdeal.CaseValue
end
-- ==== Proof.PayValue.lean ====
import proofs.«134601_j6528350290147_1_alg».proof.Proof.Gen.KernelIdeal.Skeleton
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

/-!
# The kernel body's arithmetic, read at an index, at the ideal instance

Each named payload of the kernel body is a vector of extended reals; here each is read at one index given by its
coordinates. The squared norms are sums over the three coordinates of a point, the distance tile is
`max (‖p‖² + ‖t‖² - 2·⟨p, t⟩) 0`, and the two minimum updates lower the old values by the tile's minimum along
one of its two axes.
-/

noncomputable section

namespace Cert.KernelIdeal.PayValue

open Cert.KernelIdeal Cert.KernelIdeal.Gen Idealize.ShloMosaic Idealize.ShloMosaic.ValueIdx
open scoped BigOperators

/-- The row-minimum block starts at `+∞` everywhere. -/
theorem pay2_apply (y : S4x512.Idx) : k0_pay2 (F := Ideal) y = Ideal.ofBits .f32 0x7F800000#32 := rfl

/-- The column-minimum scratch starts at `+∞` everywhere: the cast to the same shape is the identity. -/
theorem pay3_apply (y : S4x8192.Idx) : k0_pay3 (F := Ideal) y = Ideal.ofBits .f32 0x7F800000#32 := by
  unfold k0_pay3
  rw [shapeCast_self]
  rfl

/-- The scratch copied out under a leading unit axis. -/
theorem pay5_apply (v12 : Vec Ideal S4x8192 .f32) (h : Fin 1) (b : Fin 4) (m : Fin 8192) :
    k0_pay5 (F := Ideal) v12 (ix3 h b m) = v12 (ix2 b m) := by
  unfold k0_pay5
  exact shapeCast_ab_1ab_apply v12 _ h b m

/-- The squared norm of each of the block's points. -/
theorem pay1_apply (v0 : Vec Ideal S4x512x3 .f32) (b : Fin 4) (r : Fin 512) :
    k0_pay1 (F := Ideal) v0 (ix2 b r) = ∑ d : Fin 3, v0 (ix3 b r d) * v0 (ix3 b r d) := by
  unfold k0_pay1
  refine (Ideal.multiReduction_add_single (mulf v0 v0) _ reduces_S4x512x3_S4x512 _ _ (ix2 b r)).trans ?_
  refine Finset.sum_congr rfl fun d _ => ?_
  have hd : (reduces_S4x512x3_S4x512 : S4x512x3.Reduces [2] S4x512).lift (ix2 b r) d = ix3 b r d := by
    funext a
    match a with
    | ⟨0, _⟩ => rfl
    | ⟨1, _⟩ => rfl
    | ⟨2, _⟩ => rfl
  rw [hd]
  rfl

/-- A minimum over one axis of a rank-3 vector, read at the extended reals: the fold of `min` from the accumulator's
    value over that axis's coordinates. -/
theorem multiReduction_minimumf_single {s t : Shape} {a : Fin s.rank} (src : FVec Ideal s .f32) (acc : BitVec FTy.f32.bits)
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (Ideal.ofBits .f32 acc) (src ∘ h.lift j) := by
  rw [multiReduction_minimumf_eq_fold]; exact h.fold_filter_drop_single _ _ src j

/-- The column-minimum update: the old columns lowered by the tile's minimum along its rows. -/
theorem pay4_apply (v50 : FVec Ideal S4x512x512 .f32) (v57 : Vec Ideal S4x512 .f32) (b : Fin 4) (j : Fin 512) :
    k0_pay4 (F := Ideal) v50 v57 (ix2 b j)
      = min (v57 (ix2 b j)) ((Finset.univ : Finset (Fin 512)).fold min (Ideal.ofBits .f32 0x7F800000#32) (fun r => v50 (ix3 b r j))) := by
  unfold k0_pay4
  rw [shapeCast_self]
  refine (minimumf_apply _ _ _).trans ?_
  refine congrArg (min (v57 (ix2 b j))) ?_
  refine (multiReduction_minimumf_single v50 _ reduces_S4x512x512_S4x512_2 _ _ (ix2 b j)).trans ?_
  refine congrArg (Finset.fold min (Ideal.ofBits .f32 0x7F800000#32) · Finset.univ) ?_
  funext r
  have hd : (reduces_S4x512x512_S4x512_2 : S4x512x512.Reduces [1] S4x512).lift (ix2 b j) r = ix3 b r j := by
    funext a
    match a with
    | ⟨0, _⟩ => rfl
    | ⟨1, _⟩ => rfl
    | ⟨2, _⟩ => rfl
  exact congrArg v50 hd

/-- The row-minimum update: the old block lowered by the tile's minimum along its columns. -/
theorem pay7_apply (v0 : Vec Ideal S4x512x3 .f32) (v2 : FVec Ideal S4x512 .f32) (v15 : Vec Ideal S4x512x3 .f32) (v51 : Vec Ideal S4x512 .f32) (b : Fin 4) (r : Fin 512) :
    k0_pay7 (F := Ideal) v0 v2 v15 v51 (ix2 b r)
      = min (v51 (ix2 b r)) ((Finset.univ : Finset (Fin 512)).fold min (Ideal.ofBits .f32 0x7F800000#32) (fun j => k0_pay6 (F := Ideal) v0 v2 v15 (ix3 b r j))) := by
  unfold k0_pay7
  rw [shapeCast_self]
  refine (minimumf_apply _ _ _).trans ?_
  refine congrArg (min (v51 (ix2 b r))) ?_
  refine (multiReduction_minimumf_single (k0_pay6 v0 v2 v15) _ reduces_S4x512x512_S4x512 _ _ (ix2 b r)).trans ?_
  refine congrArg (Finset.fold min (Ideal.ofBits .f32 0x7F800000#32) · Finset.univ) ?_
  funext j
  have hd : (reduces_S4x512x512_S4x512 : S4x512x512.Reduces [2] S4x512).lift (ix2 b r) j = ix3 b r j := by
    funext a
    match a with
    | ⟨0, _⟩ => rfl
    | ⟨1, _⟩ => rfl
    | ⟨2, _⟩ => rfl
  exact congrArg (k0_pay6 v0 v2 v15) hd

/-! ## The layout operations of the distance tile, read at an index -/

section Layout
variable {α : Type}

/-- A column vector `[4, 512, 1]` spread over the tile's columns reads its row's entry. -/
theorem bcol_apply (x : S4x512x1.Idx → α) (h : S4x512x1.Broadcasts S4x512x512) (b : Fin 4) (r j : Fin 512) :
    broadcastTo S4x512x512 x h (ix3 b r j) = x (ix3 b r (0 : Fin 1)) :=
  broadcastTo_apply x h (ix3 b r j) (ix3 b r (0 : Fin 1)) fun a => match a with
    | ⟨0, _⟩ => rfl
    | ⟨1, _⟩ => rfl
    | ⟨2, _⟩ => rfl

/-- A row vector `[4, 1, 512]` spread over the tile's rows reads its column's entry. -/
theorem brow_apply (x : S4x1x512.Idx → α) (h : S4x1x512.Broadcasts S4x512x512) (b : Fin 4) (r j : Fin 512) :
    broadcastTo S4x512x512 x h (ix3 b r j) = x (ix3 b (0 : Fin 1) j) :=
  broadcastTo_apply x h (ix3 b r j) (ix3 b (0 : Fin 1) j) fun a => match a with
    | ⟨0, _⟩ => rfl
    | ⟨1, _⟩ => rfl
    | ⟨2, _⟩ => rfl

/-- A `[4, 512]` array viewed as a column vector `[4, 512, 1]`. -/
theorem cast_col_apply (w : S4x512.Idx → α) (h : S4x512.ShapeCasts S4x512x1) (b : Fin 4) (r : Fin 512) :
    shapeCast S4x512x1 w h (ix3 b r (0 : Fin 1)) = w (ix2 b r) :=
  shapeCast_apply w h _ _ (by
    rw [Shape.rowMajor_val_three, Shape.rowMajor_val_two]
    show b.val * 512 + r.val = (b.val * 512 + r.val) * 1 + 0
    omega)

/-- A `[4, 512]` array viewed as a row vector `[4, 1, 512]`. -/
theorem cast_row_apply (w : S4x512.Idx → α) (h : S4x512.ShapeCasts S4x1x512) (b : Fin 4) (j : Fin 512) :
    shapeCast S4x1x512 w h (ix3 b (0 : Fin 1) j) = w (ix2 b j) :=
  shapeCast_apply w h _ _ (by
    rw [Shape.rowMajor_val_three, Shape.rowMajor_val_two]
    show b.val * 512 + j.val = (b.val * 1 + 0) * 512 + j.val
    omega)

/-- A column vector `[4, 512, 1]` viewed as a `[4, 512]` array. -/
theorem cast_flat_apply (x : S4x512x1.Idx → α) (h : S4x512x1.ShapeCasts S4x512) (b : Fin 4) (r : Fin 512) :
    shapeCast S4x512 x h (ix2 b r) = x (ix3 b r (0 : Fin 1)) :=
  shapeCast_apply x h _ _ (by
    rw [Shape.rowMajor_val_three, Shape.rowMajor_val_two]
    show (b.val * 512 + r.val) * 1 + 0 = b.val * 512 + r.val
    omega)

/-- Coordinate `d` of every point, cut out of a `[4, 512, 3]` cloud as a column vector. -/
theorem coord_apply (d : Fin 3) (x : S4x512x3.Idx → α) (h : S4x512x3.Slices ![0, 0, d.val] S4x512x1) (b : Fin 4) (r : Fin 512) :
    extractStridedSlice S4x512x1 ![0, 0, d.val] x h (ix3 b r (0 : Fin 1)) = x (ix3 b r d) :=
  extractStridedSlice_apply _ x h _ _ fun a => match a with
    | ⟨0, _⟩ => by show b.val = 0 + b.val; omega
    | ⟨1, _⟩ => by show r.val = 0 + r.val; omega
    | ⟨2, _⟩ => by show d.val = d.val + 0; omega

end Layout

/-- The tile of clamped squared distances between the block's points (rows) and the chunk's points (columns). -/
theorem pay6_apply (v0 : Vec Ideal S4x512x3 .f32) (v2 : FVec Ideal S4x512 .f32) (v15 : Vec Ideal S4x512x3 .f32) (b : Fin 4) (r j : Fin 512) :
    k0_pay6 (F := Ideal) v0 v2 v15 (ix3 b r j)
      = max ((v2 (ix2 b r) + ∑ d : Fin 3, v15 (ix3 b j d) * v15 (ix3 b j d))
              - Ideal.ofBits .f32 0x40000000#32 * ∑ d : Fin 3, v0 (ix3 b r d) * v15 (ix3 b j d))
            (Ideal.ofBits .f32 0x00000000#32) := by
  -- coordinate `d` of the block's point `r`, spread along the columns
  have hp : ∀ (d : Fin 3) (hs : S4x512x3.Slices ![0, 0, d.val] S4x512x1) (hb : S4x512x1.Broadcasts S4x512x512),
      broadcastTo S4x512x512 (extractStridedSlice S4x512x1 ![0, 0, d.val] v0 hs) hb (ix3 b r j) = v0 (ix3 b r d) :=
    fun d hs hb => (bcol_apply _ hb b r j).trans (coord_apply d v0 hs b r)
  -- coordinate `d` of the chunk's point `j`, spread along the rows
  have ht : ∀ (d : Fin 3) (hs : S4x512x3.Slices ![0, 0, d.val] S4x512x1) (h1 : S4x512x1.ShapeCasts S4x512)
      (h2 : S4x512.ShapeCasts S4x1x512) (hb : S4x1x512.Broadcasts S4x512x512),
      broadcastTo S4x512x512 (shapeCast S4x1x512 (shapeCast S4x512 (extractStridedSlice S4x512x1 ![0, 0, d.val] v15 hs) h1) h2) hb
        (ix3 b r j) = v15 (ix3 b j d) :=
    fun d hs h1 h2 hb => (brow_apply _ hb b r j).trans ((cast_row_apply _ h2 b j).trans
      ((cast_flat_apply _ h1 b j).trans (coord_apply d v15 hs b j)))
  unfold k0_pay6
  refine (maximumf_apply _ _ _).trans ?_
  refine congrArg₂ max ?_ rfl
  refine (subf_apply _ _ _).trans ?_
  refine congrArg₂ (· - ·) ?_ ?_
  · -- the two squared norms
    refine (addf_apply _ _ _).trans ?_
    refine congrArg₂ (· + ·) ?_ ?_
    · exact (bcol_apply _ _ b r j).trans (cast_col_apply v2 _ b r)
    · exact (brow_apply _ _ b r j).trans ((cast_row_apply _ _ b j).trans (pay1_apply v15 b j))
  · -- twice the inner product
    refine (mulf_apply _ _ _).trans ?_
    refine congrArg₂ (· * ·) rfl ?_
    refine Eq.trans ?_ (Fin.sum_univ_three (fun d : Fin 3 => v0 (ix3 b r d) * v15 (ix3 b j d))).symm
    refine (addf_apply _ _ _).trans ?_
    refine congrArg₂ (· + ·) ?_ ?_
    · refine (addf_apply _ _ _).trans ?_
      refine congrArg₂ (· + ·) ?_ ?_
      · refine (mulf_apply _ _ _).trans ?_
        exact congrArg₂ (· * ·) (hp 0 _ _) (ht 0 _ _ _ _)
      · refine (mulf_apply _ _ _).trans ?_
        exact congrArg₂ (· * ·) (hp 1 _ _) (ht 1 _ _ _ _)
    · refine (mulf_apply _ _ _).trans ?_
      exact congrArg₂ (· * ·) (hp 2 _ _) (ht 2 _ _ _ _)

end Cert.KernelIdeal.PayValue

end
-- ==== Proof.LoopIdeal.lean ====
import proofs.«134601_j6528350290147_1_alg».proof.Proof.LoopValue
import proofs.«134601_j6528350290147_1_alg».proof.Proof.PayValue
import proofs.«134601_j6528350290147_1_alg».proof.Proof.Spec

set_option maxRecDepth 16384

noncomputable section

open scoped BigOperators

namespace Cert.KernelIdeal.LoopIdeal

open Cert.KernelIdeal Cert.KernelIdeal.Gen Cert.KernelIdeal.TripValue Cert.KernelIdeal.LoopValue Cert.KernelIdeal.PayValue
open Idealize.ShloMosaic Idealize.ShloMosaic.TcCoe Idealize.ShloMosaic.ValueIdx
open Idealize.SL Idealize.SL.Sem
open Cert.Chamfer (wTwo wZero wInf)

/-- The clamped squared distance, in expanded form, between point `r` of a 512-point block `x0` of the first cloud and
    point `m` of the whole second cloud `x1`, in batch `b`. -/
def blockDist (x0 : Vec Ideal S4x512x3 .f32) (x1 : Vec Ideal S4x8192x3 .f32) (b : Fin 4) (r : Fin 512) (m : Fin 8192) : EReal :=
  max ((∑ d : Fin 3, x0 (ix3 b r d) * x0 (ix3 b r d) + ∑ d : Fin 3, x1 (ix3 b m d) * x1 (ix3 b m d))
        - wTwo * ∑ d : Fin 3, x0 (ix3 b r d) * x1 (ix3 b m d)) wZero

section
variable (𝒱 : Variants) (c : Dev nD) (bd : Option 𝒱.V) (i : grid0.Coords) (arg2 : Memref sig .tc .vmem S4x512x3 .f32) (harg2 : arg2.IsWhole) (arg3 : Memref sig .tc .vmem S4x8192x3 .f32) (harg3 : arg3.IsWhole) (arg4 : Memref sig .tc .vmem S4x512 .f32) (harg4 : arg4.IsWhole) (arg5 : Memref sig .tc .vmem S1x4x8192 .f32) (harg5 : arg5.IsWhole) (arg6 : Memref sig .tc .vmem S4x8192 .f32) (harg6 : arg6.IsWhole)
  (x0 : Vec Ideal S4x512x3 .f32) (x1 : Vec Ideal S4x8192x3 .f32)
  (G4 : BufTy.Contents (Elt Ideal) arg4.view.ty) (G6 : BufTy.Contents (Elt Ideal) arg6.view.ty)

/-- The trip's chunk of the second cloud, read at a local index, is the cloud at the matching point. -/
theorem tgtChunk_apply (k : Fin k0_t1_loop.trips) (b : Fin 4) (j : Fin 512) (m : Fin 8192) (hm : m.val = 512 * k.val + j.val) (d : Fin 3) :
    tgtChunk arg3 (harg3.unread x1) k (ix3 b j d) = x1 (ix3 b m d) := by
  unfold tgtChunk
  rw [View.readAt_eq_ld, harg3.read_unread]
  show x1 ((Rect.unit (s := S4x8192x3) (k0_off1 k) S4x512x3.size (k0_off1_inb k)).emb (ix3 b j d)) = x1 _
  refine congrArg x1 (funext fun a => Fin.ext ?_)
  show (k0_off1 k) a + 1 * ((ix3 b j d) a).val = ((ix3 b m d) a).val
  rw [k0_off1_eq k]
  match a with
  | ⟨0, _⟩ => show 0 + 1 * b.val = b.val; omega
  | ⟨1, _⟩ => show 512 * k.val + 1 * j.val = m.val; omega
  | ⟨2, _⟩ => show 0 + 1 * d.val = d.val; omega

/-- The trip's tile at row `r` and local column `j` is the distance from point `r` to the chunk's point `j`. -/
theorem tile_apply (k : Fin k0_t1_loop.trips) (b : Fin 4) (r j : Fin 512) (m : Fin 8192) (hm : m.val = 512 * k.val + j.val) :
    tile arg3 x0 (harg3.unread x1) k (ix3 b r j) = blockDist x0 x1 b r m := by
  have hc : ∀ d : Fin 3, tgtChunk arg3 (harg3.unread x1) k (ix3 b j d) = x1 (ix3 b m d) :=
    tgtChunk_apply arg3 harg3 x1 k b j m hm
  refine (pay6_apply x0 (k0_pay1 x0) (tgtChunk arg3 (harg3.unread x1) k) b r j).trans ?_
  rw [pay1_apply]
  unfold blockDist
  simp only [hc]

/-- After `n` trips a lower bound of the block's entry for point `r` is one of `+∞` and of the distance from `r` to each
    of the first `512 · n` targets. -/
theorem rows_upto (h0 : arg4.view.read (Elt Ideal) G4 = k0_pay2 (F := Ideal)) (b : Fin 4) (r : Fin 512) (c' : EReal) (n : ℕ) (hn : n ≤ 16) :
    c' ≤ rowsAfter 𝒱 c bd i arg2 harg2 arg3 harg3 arg4 harg4 arg5 harg5 arg6 harg6 x0 (harg3.unread x1) G4 G6 n (ix2 b r)
      ↔ c' ≤ wInf ∧ ∀ m : Fin 8192, m.val < 512 * n → c' ≤ blockDist x0 x1 b r m := by
  induction n with
  | zero =>
    rw [rowsAfter_zero, h0, pay2_apply]
    exact ⟨fun h => ⟨h, fun m hm => absurd hm (by omega)⟩, fun h => h.1⟩
  | succ n ih =>
    have hk : n < k0_t1_loop.trips := by rw [trips_eq]; omega
    have hs : rowsAfter 𝒱 c bd i arg2 harg2 arg3 harg3 arg4 harg4 arg5 harg5 arg6 harg6 x0 (harg3.unread x1) G4 G6 (n + 1)
        = k0_pay7 x0 (k0_pay1 x0) (tgtChunk arg3 (harg3.unread x1) ⟨n, hk⟩) (rowsAfter 𝒱 c bd i arg2 harg2 arg3 harg3 arg4 harg4 arg5 harg5 arg6 harg6 x0 (harg3.unread x1) G4 G6 n) :=
      rowsAfter_succ 𝒱 c bd i arg2 harg2 arg3 harg3 arg4 harg4 arg5 harg5 arg6 harg6 x0 (harg3.unread x1) G4 G6 ⟨n, hk⟩
    rw [hs, pay7_apply, le_min_iff, Cert.Chamfer.le_foldMin, ih (by omega)]
    constructor
    · rintro ⟨⟨hinf, hlo⟩, _, hhi⟩
      refine ⟨hinf, fun m hm => ?_⟩
      by_cases hlt : m.val < 512 * n
      · exact hlo m hlt
      · have hj : m.val - 512 * n < 512 := by omega
        have ht := tile_apply arg3 harg3 x0 x1 ⟨n, hk⟩ b r ⟨m.val - 512 * n, hj⟩ m (by show m.val = 512 * n + (m.val - 512 * n); omega)
        exact le_of_le_of_eq (hhi ⟨m.val - 512 * n, hj⟩ (Finset.mem_univ _)) ht
    · rintro ⟨hinf, hall⟩
      refine ⟨⟨hinf, fun m hm => hall m (by omega)⟩, hinf, fun j _ => ?_⟩
      have hj := j.isLt
      have ht := tile_apply arg3 harg3 x0 x1 ⟨n, hk⟩ b r j ⟨512 * n + j.val, by omega⟩ rfl
      exact le_of_le_of_eq (hall ⟨512 * n + j.val, by omega⟩ (by show 512 * n + j.val < 512 * (n + 1); omega)) ht.symm

/-- After `n` trips a lower bound of the scratch's entry for target `m` is one of its entry before the loop and, once the
    target's chunk has been met, of `+∞` and of the distance from every point of the block to `m`. -/
theorem cols_upto (b : Fin 4) (m : Fin 8192) (c' : EReal) (n : ℕ) (hn : n ≤ 16) :
    c' ≤ colsAfter 𝒱 c bd i arg2 harg2 arg3 harg3 arg4 harg4 arg5 harg5 arg6 harg6 x0 (harg3.unread x1) G4 G6 n (ix2 b m)
      ↔ c' ≤ arg6.view.read (Elt Ideal) G6 (ix2 b m)
          ∧ (m.val < 512 * n → c' ≤ wInf ∧ ∀ r : Fin 512, c' ≤ blockDist x0 x1 b r m) := by
  induction n with
  | zero =>
    rw [colsAfter_zero]
    exact ⟨fun h => ⟨h, fun hm => absurd hm (by omega)⟩, fun h => h.1⟩
  | succ n ih =>
    have hk : n < k0_t1_loop.trips := by rw [trips_eq]; omega
    have ih' := ih (by omega)
    by_cases hin : 512 * n ≤ m.val ∧ m.val < 512 * n + 512
    · -- the target lies in this trip's chunk
      have hj : m.val - 512 * n < 512 := by omega
      have hs := colsAfter_succ_in 𝒱 c bd i arg2 harg2 arg3 harg3 arg4 harg4 arg5 harg5 arg6 harg6 x0 (harg3.unread x1) G4 G6 ⟨n, hk⟩ (ix2 b m) (ix2 b ⟨m.val - 512 * n, hj⟩) rfl
        (by show m.val = 512 * n + (m.val - 512 * n); omega)
      have hl := ld_cols_apply (colsAfter 𝒱 c bd i arg2 harg2 arg3 harg3 arg4 harg4 arg5 harg5 arg6 harg6 x0 (harg3.unread x1) G4 G6 n) ⟨n, hk⟩ (ix2 b ⟨m.val - 512 * n, hj⟩) (ix2 b m) rfl
        (by show m.val = 512 * n + (m.val - 512 * n); omega)
      have ht : ∀ r : Fin 512, tile arg3 x0 (harg3.unread x1) ⟨n, hk⟩ (ix3 b r ⟨m.val - 512 * n, hj⟩) = blockDist x0 x1 b r m :=
        fun r => tile_apply arg3 harg3 x0 x1 ⟨n, hk⟩ b r ⟨m.val - 512 * n, hj⟩ m (by show m.val = 512 * n + (m.val - 512 * n); omega)
      have hs' : colsAfter 𝒱 c bd i arg2 harg2 arg3 harg3 arg4 harg4 arg5 harg5 arg6 harg6 x0 (harg3.unread x1) G4 G6 (n + 1) (ix2 b m)
          = min (colsAfter 𝒱 c bd i arg2 harg2 arg3 harg3 arg4 harg4 arg5 harg5 arg6 harg6 x0 (harg3.unread x1) G4 G6 n (ix2 b m))
              ((Finset.univ : Finset (Fin 512)).fold min wInf (fun r => blockDist x0 x1 b r m)) := by
        refine hs.trans ((pay4_apply _ _ b ⟨m.val - 512 * n, hj⟩).trans ?_)
        rw [hl]
        simp only [ht]
      rw [hs', le_min_iff, Cert.Chamfer.le_foldMin, ih']
      constructor
      · rintro ⟨⟨h6, _⟩, hinf, hall⟩
        exact ⟨h6, fun _ => ⟨hinf, fun r => hall r (Finset.mem_univ _)⟩⟩
      · rintro ⟨h6, hall⟩
        have h := hall (by omega)
        exact ⟨⟨h6, fun hlt => absurd hlt (by omega)⟩, h.1, fun r _ => h.2 r⟩
    · -- the target lies off this trip's chunk
      have hout : m.val < 512 * n ∨ 512 * n + 512 ≤ m.val := by omega
      have hs := colsAfter_succ_out 𝒱 c bd i arg2 harg2 arg3 harg3 arg4 harg4 arg5 harg5 arg6 harg6 x0 (harg3.unread x1) G4 G6 ⟨n, hk⟩ (ix2 b m) hout
      have hs' : colsAfter 𝒱 c bd i arg2 harg2 arg3 harg3 arg4 harg4 arg5 harg5 arg6 harg6 x0 (harg3.unread x1) G4 G6 (n + 1) (ix2 b m) = colsAfter 𝒱 c bd i arg2 harg2 arg3 harg3 arg4 harg4 arg5 harg5 arg6 harg6 x0 (harg3.unread x1) G4 G6 n (ix2 b m) := hs
      rw [hs', ih']
      constructor
      · rintro ⟨h6, hall⟩
        exact ⟨h6, fun hlt => hall (by omega)⟩
      · rintro ⟨h6, hall⟩
        exact ⟨h6, fun hlt => hall (by omega)⟩

/-- After the loop a lower bound of the block's entry for point `r` is one of `+∞` and of the distance from `r` to every target. -/
theorem rows_final (h0 : arg4.view.read (Elt Ideal) G4 = k0_pay2 (F := Ideal)) (b : Fin 4) (r : Fin 512) (c' : EReal) :
    c' ≤ rowsAfter 𝒱 c bd i arg2 harg2 arg3 harg3 arg4 harg4 arg5 harg5 arg6 harg6 x0 (harg3.unread x1) G4 G6 k0_t1_loop.trips (ix2 b r)
      ↔ c' ≤ wInf ∧ ∀ m : Fin 8192, c' ≤ blockDist x0 x1 b r m := by
  rw [trips_eq, rows_upto 𝒱 c bd i arg2 harg2 arg3 harg3 arg4 harg4 arg5 harg5 arg6 harg6 x0 x1 G4 G6 h0 b r c' 16 (Nat.le_refl _)]
  exact ⟨fun h => ⟨h.1, fun m => h.2 m (by have := m.isLt; omega)⟩, fun h => ⟨h.1, fun m _ => h.2 m⟩⟩

/-- After the loop a lower bound of the scratch's entry for target `m` is one of its entry before the loop, of `+∞`, and of
    the distance from every point of the block to `m`. -/
theorem cols_final (b : Fin 4) (m : Fin 8192) (c' : EReal) :
    c' ≤ colsAfter 𝒱 c bd i arg2 harg2 arg3 harg3 arg4 harg4 arg5 harg5 arg6 harg6 x0 (harg3.unread x1) G4 G6 k0_t1_loop.trips (ix2 b m)
      ↔ c' ≤ arg6.view.read (Elt Ideal) G6 (ix2 b m) ∧ c' ≤ wInf ∧ ∀ r : Fin 512, c' ≤ blockDist x0 x1 b r m := by
  rw [trips_eq, cols_upto 𝒱 c bd i arg2 harg2 arg3 harg3 arg4 harg4 arg5 harg5 arg6 harg6 x0 x1 G4 G6 b m c' 16 (Nat.le_refl _)]
  exact ⟨fun h => ⟨h.1, h.2 (by have := m.isLt; omega)⟩, fun h => ⟨h.1, fun _ => h.2⟩⟩

end

end Cert.KernelIdeal.LoopIdeal
end
-- ==== Proof.GridValue.lean ====
/-
  Across the grid. Point `t` holds points `512·t … 512·t + 511` of the first cloud; its row-minimum block ends at their row
  minima over the whole second cloud. The column-minimum scratch, refilled at the first point of each half (points 0 and 8),
  holds after point `t`, for every target, the minimum over the first cloud's points from the start of the half to the end
  of `t`'s block (induction over the points); at the last point of a half that is the half's column minimum, which is what
  the second output's block receives.
-/
import proofs.«134601_j6528350290147_1_alg».proof.Proof.CaseValue
import proofs.«134601_j6528350290147_1_alg».proof.Proof.LoopIdeal

set_option maxRecDepth 16384

noncomputable section

open scoped BigOperators

namespace Cert.KernelIdeal.GridValue

open Cert.KernelIdeal Cert.KernelIdeal.Gen Cert.KernelIdeal.LoopValue Cert.KernelIdeal.CaseValue Cert.KernelIdeal.LoopIdeal
open Idealize.ShloMosaic Idealize.ShloMosaic.TcCoe Idealize.ShloMosaic.ValueIdx
open Idealize.SL Idealize.SL.Sem
open Cert.Chamfer (wTwo wZero wInf)

variable (m : (ℓ : Loc nD τ sig) → Buf (Elt Ideal) ℓ)

/-- The first cloud as the region finds it. -/
abbrev cloudP (c : Dev nD) : Cert.Chamfer.Cloud := V m c main_arg0
/-- The second cloud as the region finds it. -/
abbrev cloudT (c : Dev nD) : Cert.Chamfer.Cloud := V m c main_arg1

theorem N16 : cfg0.N = 16 := N_0

/-- A grid point's position is below sixteen. -/
theorem tlt (t : Fin cfg0.N) : t.val < 16 := lt_of_lt_of_eq t.isLt N_0

/-! ## The windows' blocks as pieces of the two clouds -/

/-- The first cloud's block at point `t`: its points `512·t … 512·t + 511`. -/
abbrev pblk (c : Dev nD) (t : Fin cfg0.N) : Vec Ideal S4x512x3 .f32 := iblk m c 0 t
/-- The second cloud's block at any point: the whole cloud. -/
abbrev tblk (c : Dev nD) (t : Fin cfg0.N) : Vec Ideal S4x8192x3 .f32 := iblk m c 1 t

/-- Where the two input windows' blocks sit, decided once over the grid. -/
theorem idx_facts0 : ∀ t : Fin cfg0.N, win0_0.index t (0 : Fin 3) = 0 ∧ win0_0.index t (1 : Fin 3) = t.val ∧ win0_0.index t (2 : Fin 3) = 0 :=
  (by decide +kernel : ∀ t : Fin grid0.N, win0_0.index t (0 : Fin 3) = 0 ∧ win0_0.index t (1 : Fin 3) = t.val ∧ win0_0.index t (2 : Fin 3) = 0)
theorem idx_facts1 : ∀ t : Fin cfg0.N, win0_1.index t (0 : Fin 3) = 0 ∧ win0_1.index t (1 : Fin 3) = 0 ∧ win0_1.index t (2 : Fin 3) = 0 :=
  (by decide +kernel : ∀ t : Fin grid0.N, win0_1.index t (0 : Fin 3) = 0 ∧ win0_1.index t (1 : Fin 3) = 0 ∧ win0_1.index t (2 : Fin 3) = 0)

theorem pblk_apply (c : Dev nD) (t : Fin cfg0.N) (b : Fin 4) (r : Fin 512) (d : Fin 3) :
    pblk m c t (ix3 b r d) = cloudP m c (ix3 b ⟨512 * t.val + r.val, by have := tlt t; have := r.isLt; omega⟩ d) := by
  show V m c main_arg0 (((cfg0.win 0).blk t).view.emb (ix3 b r d)) = V m c main_arg0 _
  refine congrArg _ (funext fun a => Fin.ext ?_)
  obtain ⟨e0, e1, e2⟩ := idx_facts0 t
  match a with
  | ⟨0, _⟩ => show win0_0.index t (0 : Fin 3) * 4 + 1 * b.val = b.val; omega
  | ⟨1, _⟩ => show win0_0.index t (1 : Fin 3) * 512 + 1 * r.val = 512 * t.val + r.val; omega
  | ⟨2, _⟩ => show win0_0.index t (2 : Fin 3) * 3 + 1 * d.val = d.val; omega

theorem tblk_apply (c : Dev nD) (t : Fin cfg0.N) (b : Fin 4) (mm : Fin 8192) (d : Fin 3) :
    tblk m c t (ix3 b mm d) = cloudT m c (ix3 b mm d) := by
  show V m c main_arg1 (((cfg0.win 1).blk t).view.emb (ix3 b mm d)) = V m c main_arg1 _
  refine congrArg _ (funext fun a => Fin.ext ?_)
  obtain ⟨e0, e1, e2⟩ := idx_facts1 t
  match a with
  | ⟨0, _⟩ => show win0_1.index t (0 : Fin 3) * 4 + 1 * b.val = b.val; omega
  | ⟨1, _⟩ => show win0_1.index t (1 : Fin 3) * 8192 + 1 * mm.val = mm.val; omega
  | ⟨2, _⟩ => show win0_1.index t (2 : Fin 3) * 3 + 1 * d.val = d.val; omega

/-- The distance from point `r` of the block at `t` to target `mm` is the clouds' distance from point `512·t + r`. -/
theorem blockDist_eq (c : Dev nD) (t : Fin cfg0.N) (b : Fin 4) (r : Fin 512) (mm : Fin 8192) :
    blockDist (pblk m c t) (tblk m c t) b r mm
      = Cert.Chamfer.sqDist (cloudP m c) (cloudT m c) b ⟨512 * t.val + r.val, by have := tlt t; have := r.isLt; omega⟩ mm := by
  unfold blockDist Cert.Chamfer.sqDist Cert.Chamfer.sqNorm Cert.Chamfer.inner
  simp only [pblk_apply, tblk_apply]

/-! ## The first output: each point's block holds its 512 points' row minima -/

/-- From the universal property of a block's entry to the row minimum. -/
theorem rowMin_of (c : Dev nD) (t : Fin cfg0.N) (b : Fin 4) (r : Fin 512) (v : EReal)
    (hv : ∀ c' : EReal, c' ≤ v ↔ c' ≤ wInf ∧ ∀ mm : Fin 8192, c' ≤ blockDist (pblk m c t) (tblk m c t) b r mm) :
    v = Cert.Chamfer.rowMin (cloudP m c) (cloudT m c) b
          ⟨512 * t.val + r.val, by have := tlt t; have := r.isLt; omega⟩ := by
  refine Cert.Chamfer.eq_of_lowerBounds fun c' => ?_
  rw [hv c', Cert.Chamfer.rowMin, Cert.Chamfer.le_foldMin]
  simp only [blockDist_eq, Finset.mem_univ, forall_true_left]

/-- After grid point `t` the first output's staging block holds the row minima of the point's 512 points of the first cloud. -/
theorem rows_at (c : Dev nD) (t : Fin cfg0.N) (b : Fin 4) (r : Fin 512) :
    (outsAt0 m c t.val t.isLt).1 (ix2 b r)
      = Cert.Chamfer.rowMin (cloudP m c) (cloudT m c) b
          ⟨512 * t.val + r.val, by have := tlt t; have := r.isLt; omega⟩ := by
  refine rowMin_of m c t b r _ fun c' => ?_
  by_cases h0 : t.val % 8 = 0
  · have h1 : ¬ t.val % 8 = 7 := by omega
    rw [outsAt0_A m c t h0 h1]
    dsimp only
    rw [out_A_2 c (grid0.coords t) (ms0_0 t) (hs0_0 t) (ms0_1 t) (hs0_1 t) (ms0_2 t) (hs0_2 t) (ms0_3 t) (hs0_3 t) scM0_0 (Memref.isWhole_whole _) _ _ (pblk m c t) (tblk m c t)]
    exact rows_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) (filled6 scM0_0) (read_filled4 _) b r c'
  · by_cases h1 : t.val % 8 = 7
    · rw [outsAt0_C m c t h0 h1]
      dsimp only
      rw [out_C_2 c (grid0.coords t) (ms0_0 t) (hs0_0 t) (ms0_1 t) (hs0_1 t) (ms0_2 t) (hs0_2 t) (ms0_3 t) (hs0_3 t) scM0_0 (Memref.isWhole_whole _) _ _ (pblk m c t) (tblk m c t) _]
      exact rows_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) _ (read_filled4 _) b r c'
    · rw [outsAt0_B m c t h0 h1]
      dsimp only
      rw [out_B_2 c (grid0.coords t) (ms0_0 t) (hs0_0 t) (ms0_1 t) (hs0_1 t) (ms0_2 t) (hs0_2 t) (ms0_3 t) (hs0_3 t) scM0_0 (Memref.isWhole_whole _) _ _ (pblk m c t) (tblk m c t) _]
      exact rows_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) _ (read_filled4 _) b r c'

/-! ## The scratch: after point `t` it holds, per target, the minimum over the half's points seen so far -/

/-- The distances from the block's points are the clouds' distances from points `512·t … 512·t + 511`. -/
theorem forall_block (c : Dev nD) (t : Fin cfg0.N) (b : Fin 4) (mm : Fin 8192) (c' : EReal) :
    (∀ r : Fin 512, c' ≤ blockDist (pblk m c t) (tblk m c t) b r mm)
      ↔ ∀ p : Fin 8192, 512 * t.val ≤ p.val → p.val < 512 * t.val + 512 → c' ≤ Cert.Chamfer.sqDist (cloudP m c) (cloudT m c) b p mm := by
  constructor
  · intro h p h1 h2
    have hr := h ⟨p.val - 512 * t.val, by omega⟩
    rw [blockDist_eq] at hr
    have e : (⟨512 * t.val + (p.val - 512 * t.val), by have := p.isLt; omega⟩ : Fin 8192) = p := Fin.ext (by show 512 * t.val + (p.val - 512 * t.val) = p.val; omega)
    rwa [e] at hr
  · intro h r
    rw [blockDist_eq]
    exact h _ (by show 512 * t.val ≤ 512 * t.val + r.val; omega) (by show 512 * t.val + r.val < 512 * t.val + 512; have := r.isLt; omega)

/-- At the first point of a half the scratch is refilled: its lower bounds are those of `+∞` and of the block's distances. -/
theorem scr_first (c : Dev nD) (t : Fin cfg0.N) (h0 : t.val % 8 = 0) (b : Fin 4) (mm : Fin 8192) (c' : EReal) :
    c' ≤ (outsAt0 m c t.val t.isLt).2.2 (ix2 b mm)
      ↔ c' ≤ wInf ∧ ∀ r : Fin 512, c' ≤ blockDist (pblk m c t) (tblk m c t) b r mm := by
  have h1 : ¬ t.val % 8 = 7 := by omega
  rw [outsAt0_A m c t h0 h1]
  dsimp only
  rw [sout_A_0 c (grid0.coords t) (ms0_0 t) (hs0_0 t) (ms0_1 t) (hs0_1 t) (ms0_2 t) (hs0_2 t) (ms0_3 t) (hs0_3 t) scM0_0 (Memref.isWhole_whole _) _ _ (pblk m c t) (tblk m c t)]
  rw [cols_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) (filled6 scM0_0) b mm c']
  rw [read_filled6, Cert.KernelIdeal.PayValue.pay3_apply]
  exact ⟨fun h => h.2, fun h => ⟨h.1, h⟩⟩

/-- At a later point of a half the scratch is lowered: its lower bounds are those of what the point before left and of the block's distances. -/
theorem scr_later (c : Dev nD) (t : Fin cfg0.N) (h0 : ¬ t.val % 8 = 0) (b : Fin 4) (mm : Fin 8192) (c' : EReal) :
    c' ≤ (outsAt0 m c t.val t.isLt).2.2 (ix2 b mm)
      ↔ c' ≤ (outsAt0 m c (t.val - 1) (Nat.lt_of_le_of_lt (Nat.sub_le _ _) t.isLt)).2.2 (ix2 b mm)
          ∧ c' ≤ wInf ∧ ∀ r : Fin 512, c' ≤ blockDist (pblk m c t) (tblk m c t) b r mm := by
  by_cases h1 : t.val % 8 = 7
  · rw [outsAt0_C m c t h0 h1]
    dsimp only
    rw [sout_C_0 c (grid0.coords t) (ms0_0 t) (hs0_0 t) (ms0_1 t) (hs0_1 t) (ms0_2 t) (hs0_2 t) (ms0_3 t) (hs0_3 t) scM0_0 (Memref.isWhole_whole _) _ _ (pblk m c t) (tblk m c t) _]
    rw [cols_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) _ b mm c']
    rw [Memref.IsWhole.read_unread]
  · rw [outsAt0_B m c t h0 h1]
    dsimp only
    rw [sout_B_0 c (grid0.coords t) (ms0_0 t) (hs0_0 t) (ms0_1 t) (hs0_1 t) (ms0_2 t) (hs0_2 t) (ms0_3 t) (hs0_3 t) scM0_0 (Memref.isWhole_whole _) _ _ (pblk m c t) (tblk m c t) _]
    rw [cols_final Variants.none c none (grid0.coords t) (ms0_0 t) (hs0_0 t) (ms0_1 t) (hs0_1 t) (ms0_2 t) (hs0_2 t) (ms0_3 t) (hs0_3 t) scM0_0 (Memref.isWhole_whole _) (pblk m c t) (tblk m c t) (filled4 (ms0_2 t)) _ b mm c']
    rw [Memref.IsWhole.read_unread]

/-- THE SCRATCH AFTER POINT `n`: per batch and target, a lower bound of its entry is one of `+∞` and of the distance from
    every point of the first cloud between the start of the point's half and the end of the point's block. -/
theorem scr_inv (c : Dev nD) : ∀ (n : ℕ) (hn : n < cfg0.N) (b : Fin 4) (mm : Fin 8192) (c' : EReal),
    c' ≤ (outsAt0 m c n hn).2.2 (ix2 b mm)
      ↔ c' ≤ wInf ∧ ∀ p : Fin 8192, 4096 * (n / 8) ≤ p.val → p.val < 512 * (n + 1) →
          c' ≤ Cert.Chamfer.sqDist (cloudP m c) (cloudT m c) b p mm := by
  intro n
  induction n with
  | zero =>
    intro hn b mm c'
    rw [scr_first m c ⟨0, hn⟩ (Nat.zero_mod _) b mm c', forall_block]
    refine and_congr_right fun _ => forall_congr' fun p => ?_
    constructor
    · intro h h1 h2; exact h (by simp) (by simpa using h2)
    · intro h h1 h2; exact h (by simp) (by simpa using h2)
  | succ n ih =>
    intro hn b mm c'
    by_cases h0 : (n + 1) % 8 = 0
    · rw [scr_first m c ⟨n + 1, hn⟩ h0 b mm c', forall_block]
      refine and_congr_right fun _ => forall_congr' fun p => ?_
      have e : 4096 * ((n + 1) / 8) = 512 * (n + 1) := by omega
      constructor
      · intro h h1 h2; exact h (by show 512 * (n + 1) ≤ p.val; omega) (by show p.val < 512 * (n + 1) + 512; omega)
      · intro h h1 h2; exact h (by have : 512 * (n + 1) ≤ p.val := h1; omega) (by have : p.val < 512 * (n + 1) + 512 := h2; omega)
    · rw [scr_later m c ⟨n + 1, hn⟩ h0 b mm c', forall_block]
      have ihn : c' ≤ (outsAt0 m c ((⟨n + 1, hn⟩ : Fin cfg0.N).val - 1) (Nat.lt_of_le_of_lt (Nat.sub_le _ _) (⟨n + 1, hn⟩ : Fin cfg0.N).isLt)).2.2 (ix2 b mm)
          ↔ c' ≤ wInf ∧ ∀ p : Fin 8192, 4096 * (n / 8) ≤ p.val → p.val < 512 * (n + 1) →
              c' ≤ Cert.Chamfer.sqDist (cloudP m c) (cloudT m c) b p mm := ih (Nat.lt_of_succ_lt hn) b mm c'
      rw [ihn]
      have e : (n + 1) / 8 = n / 8 := by omega
      constructor
      · rintro ⟨⟨hw, hp⟩, -, hb⟩
        refine ⟨hw, fun p h1 h2 => ?_⟩
        by_cases hlt : p.val < 512 * (n + 1)
        · exact hp p (by omega) hlt
        · exact hb p (by show 512 * (n + 1) ≤ p.val; omega) (by show p.val < 512 * (n + 1) + 512; omega)
      · rintro ⟨hw, hp⟩
        refine ⟨⟨hw, fun p h1 h2 => hp p (by omega) (by omega)⟩, hw, fun p h1 h2 => hp p ?_ ?_⟩
        · have : 512 * (n + 1) ≤ p.val := h1
          have hN : n + 1 < 16 := lt_of_lt_of_eq hn N_0
          omega
        · have : p.val < 512 * (n + 1) + 512 := h2
          omega

/-! ## The second output: at the last point of a half its block holds the half's column minima -/

/-- After the last point of a half the second output's staging block holds that half's column minima. -/
theorem halfcols_at (c : Dev nD) (t : Fin cfg0.N) (h7 : t.val % 8 = 7) (h : Fin 1) (b : Fin 4) (mm : Fin 8192) :
    (outsAt0 m c t.val t.isLt).2.1 (ix3 h b mm)
      = Cert.Chamfer.halfColMin (cloudP m c) (cloudT m c)
          ⟨t.val / 8, by have := tlt t; omega⟩ b mm := by
  have h0 : ¬ t.val % 8 = 0 := by omega
  have e : (outsAt0 m c t.val t.isLt).2.1 (ix3 h b mm) = (outsAt0 m c t.val t.isLt).2.2 (ix2 b mm) := by
    rw [outsAt0_C m c t h0 h7]
    dsimp only
    rw [out_C_3 c (grid0.coords t) (ms0_0 t) (hs0_0 t) (ms0_1 t) (hs0_1 t) (ms0_2 t) (hs0_2 t) (ms0_3 t) (hs0_3 t) scM0_0 (Memref.isWhole_whole _) _ _ (pblk m c t) (tblk m c t) _, Cert.KernelIdeal.PayValue.pay5_apply,
      sout_C_0 c (grid0.coords t) (ms0_0 t) (hs0_0 t) (ms0_1 t) (hs0_1 t) (ms0_2 t) (hs0_2 t) (ms0_3 t) (hs0_3 t) scM0_0 (Memref.isWhole_whole _) _ _ (pblk m c t) (tblk m c t) _]
  rw [e]
  refine Cert.Chamfer.eq_of_lowerBounds fun c' => ?_
  rw [scr_inv m c t.val t.isLt b mm c', Cert.Chamfer.halfColMin, Cert.Chamfer.le_foldMin]
  have hN := tlt t
  refine and_congr_right fun _ => ?_
  constructor
  · intro hp q _
    exact hp _ (by show 4096 * (t.val / 8) ≤ 4096 * (t.val / 8) + q.val; omega)
      (by show 4096 * (t.val / 8) + q.val < 512 * (t.val + 1); have := q.isLt; omega)
  · intro hq p h1 h2
    have := hq ⟨p.val - 4096 * (t.val / 8), by omega⟩ (Finset.mem_univ _)
    have e2 : (⟨4096 * (t.val / 8) + (p.val - 4096 * (t.val / 8)), by have := p.isLt; omega⟩ : Fin 8192) = p :=
      Fin.ext (by show 4096 * (t.val / 8) + (p.val - 4096 * (t.val / 8)) = p.val; omega)
    rwa [e2] at this

end Cert.KernelIdeal.GridValue
end
-- ==== Proof.Final.lean ====
/-
  From the per-point staging blocks to the two output arrays, through the host tail, to the kernel's run with its result named.

  The first output's block at grid point `t` is columns `512·t … 512·t + 511` and is written back at every point; it
  holds the row minima of those points, so the array ends holding `rowMinArr`. The second output's block is the half
  `t / 8`, written back at the last point of each half, holding that half's column minima, so the array ends holding
  `halfColMinArr`. On the host the minimum over the two halves is the column minimum (a point `n` is point `n % 4096`
  of the half `n / 4096`; both sides have the same lower bounds), and what follows is the shared tail of the two arrays.
-/
import proofs.«134601_j6528350290147_1_alg».proof.Proof.GridValue
import proofs.«134601_j6528350290147_1_alg».proof.Proof.Tail
import Idealize.ShloMosaic.Lib.Pipeline.Value
import Idealize.ShloMosaic.Lib.StableHlo.Run
import Idealize.ShloMosaic.PureOps.Reduce
import Idealize.ShloMosaic.PureOps.Ideal.Laws

set_option maxRecDepth 16384

noncomputable section

open scoped BigOperators

namespace Cert.KernelIdeal.Final

open Cert.KernelIdeal Cert.KernelIdeal.Gen Cert.KernelIdeal.GridValue
open Idealize.ShloMosaic Idealize.ShloMosaic.TcCoe Idealize.ShloMosaic.ValueIdx Idealize.SL.Sem
open Idealize.ShloMosaic.Pipeline (Dat)
open Cert.Chamfer

variable (m : (ℓ : Loc nD τ sig) → Buf (Elt Ideal) ℓ) (ρ : Dev nD → PrngReg)

/-! ## The two output windows' block indices, decided over the grid -/

/-- The first output's block at point `t` is block `t` of the columns. -/
theorem idx2_facts : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)

/-- The second output's block at point `t` is the half `t / 8`. -/
theorem idx3_facts : ∀ t : Fin cfg0.N, win0_3.index t (0 : Fin 3) = t.val / 8 ∧ win0_3.index t (1 : Fin 3) = 0 ∧ win0_3.index t (2 : Fin 3) = 0 :=
  (by decide +kernel : ∀ t : Fin grid0.N, win0_3.index t (0 : Fin 3) = t.val / 8 ∧ win0_3.index t (1 : Fin 3) = 0 ∧ win0_3.index t (2 : Fin 3) = 0)

/-- An index of the first output array is in point `t`'s block iff each coordinate is in the block's range. -/
theorem mem_blk2 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole main_v0_0).slice (win0_2.rect t)).set ↔ _
  rw [View.set_slice_whole, Rect.mem_set_unit]
  exact Iff.rfl

/-- An index of the second output array is in point `t`'s block iff each coordinate is in the block's range. -/
theorem mem_blk3 (t : Fin cfg0.N) (i : S2x4x8192.Idx) :
    i ∈ ((cfg0.win 3).blk t).view.set ↔ ∀ a : Fin 3, win0_3.index t a * S1x4x8192.size a ≤ (i a).val ∧ (i a).val < win0_3.index t a * S1x4x8192.size a + S1x4x8192.size a := by
  show i ∈ ((View.whole main_v0_1).slice (win0_3.rect t)).set ↔ _
  rw [View.set_slice_whole, Rect.mem_set_unit]
  exact Iff.rfl

/-! ## The specification's arrays at an index given by its coordinates -/

theorem rowMinArr_at (P T : Cloud) (i : (⟨2, ![4, 8192]⟩ : Shape).Idx) (b : Fin 4) (n : Fin 8192)
    (h0 : (i 0).val = b.val) (h1 : (i 1).val = n.val) : rowMinArr P T i = rowMin P T b n := by
  have e0 : (⟨(i 0).val, idx2_lt0 i⟩ : Fin 4) = b := Fin.ext h0
  have e1 : (⟨(i 1).val, idx2_lt1 i⟩ : Fin 8192) = n := Fin.ext h1
  show rowMin P T ⟨(i 0).val, idx2_lt0 i⟩ ⟨(i 1).val, idx2_lt1 i⟩ = _
  rw [e0, e1]

theorem halfColMinArr_at (P T : Cloud) (i : (⟨3, ![2, 4, 8192]⟩ : Shape).Idx) (h : Fin 2) (b : Fin 4) (n : Fin 8192)
    (h0 : (i 0).val = h.val) (h1 : (i 1).val = b.val) (h2 : (i 2).val = n.val) : halfColMinArr P T i = halfColMin P T h b n := by
  have e0 : (⟨(i 0).val, (i 0).isLt⟩ : Fin 2) = h := Fin.ext h0
  have e1 : (⟨(i 1).val, (i 1).isLt⟩ : Fin 4) = b := Fin.ext h1
  have e2 : (⟨(i 2).val, (i 2).isLt⟩ : Fin 8192) = n := Fin.ext h2
  show halfColMin P T ⟨(i 0).val, (i 0).isLt⟩ ⟨(i 1).val, (i 1).isLt⟩ ⟨(i 2).val, (i 2).isLt⟩ = _
  rw [e0, e1, e2]

/-! ## What each point writes back -/

/-- The first output's staging block after point `t`, at any index of the block. -/
theorem rows_at_idx (c : Dev nD) (t : Fin cfg0.N) (y : S4x512.Idx) :
    (outsAt0 m c t.val t.isLt).1 y
      = rowMin (cloudP m c) (cloudT m c) ⟨(y 0).val, (y 0).isLt⟩
          ⟨512 * t.val + (y 1).val, by have := lt_of_lt_of_eq t.isLt N16; have : (y 1).val < 512 := (y 1).isLt; omega⟩ := by
  obtain ⟨b, r, rfl⟩ : ∃ (b : Fin 4) (r : Fin 512), y = ix2 b r := ⟨y 0, y 1, eq_ix2 y⟩
  exact rows_at m c t b r

/-- The second output's staging block after the last point of a half, at any index of the block. -/
theorem halfcols_at_idx (c : Dev nD) (t : Fin cfg0.N) (h7 : t.val % 8 = 7) (y : S1x4x8192.Idx) :
    (outsAt0 m c t.val t.isLt).2.1 y
      = halfColMin (cloudP m c) (cloudT m c) ⟨t.val / 8, by have := lt_of_lt_of_eq t.isLt N16; omega⟩
          ⟨(y 1).val, (y 1).isLt⟩ ⟨(y 2).val, (y 2).isLt⟩ := by
  obtain ⟨h, b, mm, rfl⟩ : ∃ (h : Fin 1) (b : Fin 4) (mm : Fin 8192), y = ix3 h b mm := ⟨y 0, y 1, y 2, eq_ix3 y⟩
  exact halfcols_at m c t h7 h b mm

/-- What point `t` writes back to the first output is block `t` of the row minima. -/
theorem flushed2_eq (c : Dev nD) (t : Fin cfg0.N) :
    (dats m 0 c).flushed 2 t = ((cfg0.win 2).blk t).view.read (Elt Ideal) (rowMinArr (cloudP m c) (cloudT m c)) := by
  show (cfg0.win 2).cut (grid0.coords t) ((dats m 0 c).after 2 t) = _
  rw [after0_2]
  funext j
  obtain ⟨e0, e1⟩ := idx2_facts t
  show (outsAt0 m c t.val t.isLt).1 ((cfg0.win 2).xinj (grid0.coords t) j)
    = rowMinArr (cloudP m c) (cloudT m c) (((cfg0.win 2).blk t).view.emb j)
  refine (rows_at_idx m c t ((cfg0.win 2).xinj (grid0.coords t) j)).trans ?_
  symm
  refine rowMinArr_at _ _ _ _ _ ?_ ?_
  · show win0_2.index t (0 : Fin 2) * 4 + 1 * (j 0).val = (j 0).val
    omega
  · show win0_2.index t (1 : Fin 2) * 512 + 1 * (j 1).val = 512 * t.val + (j 1).val
    omega

/-- What the last point of a half writes back to the second output is that half's block of the halves' column minima. -/
theorem flushed3_eq (c : Dev nD) (t : Fin cfg0.N) (h7 : t.val % 8 = 7) :
    (dats m 0 c).flushed 3 t = ((cfg0.win 3).blk t).view.read (Elt Ideal) (halfColMinArr (cloudP m c) (cloudT m c)) := by
  show (cfg0.win 3).cut (grid0.coords t) ((dats m 0 c).after 3 t) = _
  rw [after0_3]
  funext j
  obtain ⟨e0, e1, e2⟩ := idx3_facts t
  have hj0 : (j 0).val < 1 := (j 0).isLt
  show (outsAt0 m c t.val t.isLt).2.1 ((cfg0.win 3).xinj (grid0.coords t) j)
    = halfColMinArr (cloudP m c) (cloudT m c) (((cfg0.win 3).blk t).view.emb j)
  refine (halfcols_at_idx m c t h7 ((cfg0.win 3).xinj (grid0.coords t) j)).trans ?_
  symm
  refine halfColMinArr_at _ _ _ _ _ _ ?_ ?_ ?_
  · show win0_3.index t (0 : Fin 3) * 1 + 1 * (j 0).val = t.val / 8
    omega
  · show win0_3.index t (1 : Fin 3) * 4 + 1 * (j 1).val = (j 1).val
    omega
  · show win0_3.index t (2 : Fin 3) * 8192 + 1 * (j 2).val = (j 2).val
    omega

/-! ## The arrays after the region -/

/-- After the region the first output array holds the row minima. -/
theorem final2 (c : Dev nD) : (dats m 0 c).arrAt 2 cfg0.N = Cert.Chamfer.rowMinArr (cloudP m c) (cloudT m c) :=
  (dats m 0 c).arrAt_eq_of_cover 2 (rowMinArr (cloudP m c) (cloudT m c)) (fun t _ => flushed2_eq m c t) fun i => by
    have hi0 : (i 0).val < 4 := (i 0).isLt
    have hi1 : (i 1).val < 8192 := (i 1).isLt
    obtain ⟨t, ht⟩ : ∃ t : Fin cfg0.N, t.val = (i 1).val / 512 := ⟨⟨(i 1).val / 512, by rw [N16]; omega⟩, rfl⟩
    obtain ⟨e0, e1⟩ := idx2_facts t
    refine ⟨t, flush0_2 t, ?_⟩
    rw [mem_blk2]
    intro a
    match a with
    | ⟨0, _⟩ => show win0_2.index t (0 : Fin 2) * 4 ≤ (i 0).val ∧ (i 0).val < win0_2.index t (0 : Fin 2) * 4 + 4; omega
    | ⟨1, _⟩ => show win0_2.index t (1 : Fin 2) * 512 ≤ (i 1).val ∧ (i 1).val < win0_2.index t (1 : Fin 2) * 512 + 512; omega

/-- After the region the second output array holds each half's column minima. -/
theorem final3 (c : Dev nD) : (dats m 0 c).arrAt 3 cfg0.N = Cert.Chamfer.halfColMinArr (cloudP m c) (cloudT m c) :=
  (dats m 0 c).arrAt_eq_of_cover 3 (halfColMinArr (cloudP m c) (cloudT m c))
    (fun t hf => flushed3_eq m c t ((flush0_3 t).mp hf)) fun i => by
    have hi0 : (i 0).val < 2 := (i 0).isLt
    have hi1 : (i 1).val < 4 := (i 1).isLt
    have hi2 : (i 2).val < 8192 := (i 2).isLt
    obtain ⟨t, ht⟩ : ∃ t : Fin cfg0.N, t.val = 8 * (i 0).val + 7 := ⟨⟨8 * (i 0).val + 7, by rw [N16]; omega⟩, rfl⟩
    obtain ⟨e0, e1, e2⟩ := idx3_facts t
    refine ⟨t, (flush0_3 t).mpr (by omega), ?_⟩
    rw [mem_blk3]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 4 ≤ (i 1).val ∧ (i 1).val < win0_3.index t (1 : Fin 3) * 4 + 4; omega
    | ⟨2, _⟩ => show win0_3.index t (2 : Fin 3) * 8192 ≤ (i 2).val ∧ (i 2).val < win0_3.index t (2 : Fin 3) * 8192 + 8192; omega

/-! ## The minimum over the two halves -/

/-- The source index over `(b, n)` with the half `k` inserted on the first axis. -/
theorem lift0_eq (h : S2x4x8192.Reduces [0] S4x8192) (b : Fin 4) (n : Fin 8192) (k : Fin 2) :
    h.lift (ix2 b n) k = ix3 k b n :=
  funext fun a => Fin.ext (by match a with | ⟨0, _⟩ => rfl | ⟨1, _⟩ => rfl | ⟨2, _⟩ => rfl)

/-- The column minimum is the smaller of the two halves' column minima: they have the same lower bounds, a point `n`
    being point `n % 4096` of the half `n / 4096`. -/
theorem colMin_eq_halves (P T : Cloud) (b : Fin 4) (mm : Fin 8192) :
    (Finset.univ : Finset (Fin 2)).fold min wInf (fun k => halfColMin P T k b mm) = colMin P T b mm := by
  refine eq_of_lowerBounds fun c => ?_
  unfold colMin
  rw [le_foldMin, le_foldMin]
  constructor
  · rintro ⟨h0, hk⟩
    refine ⟨h0, fun n _ => ?_⟩
    have hn : n.val < 8192 := n.isLt
    have h1 := hk ⟨n.val / 4096, by omega⟩ (Finset.mem_univ _)
    unfold halfColMin at h1
    rw [le_foldMin] at h1
    have h2 := h1.2 ⟨n.val % 4096, Nat.mod_lt _ (by decide)⟩ (Finset.mem_univ _)
    have e : (⟨4096 * (n.val / 4096) + n.val % 4096, by omega⟩ : Fin 8192) = n := Fin.ext (by show 4096 * (n.val / 4096) + n.val % 4096 = n.val; omega)
    rw [← e]
    exact h2
  · rintro ⟨h0, hn⟩
    refine ⟨h0, fun k _ => ?_⟩
    unfold halfColMin
    rw [le_foldMin]
    exact ⟨h0, fun n' _ => hn _ (Finset.mem_univ _)⟩

/-- The minimum over the two halves of the halves' column minima is the column minimum. -/
theorem halves_min (P T : Cert.Chamfer.Cloud) :
    Host.reduce FloatOps.minimumf (Cert.Chamfer.halfColMinArr P T) (constant (F := Ideal) S_ .f32 0x7F800000#32) reducesTo_S2x4x8192_S4x8192_d0 h_S_
      = Cert.Chamfer.colMinArr P T := by
  funext i
  obtain ⟨b, mm, rfl⟩ : ∃ (b : Fin 4) (mm : Fin 8192), i = ix2 b mm := ⟨i 0, i 1, eq_ix2 i⟩
  have h : S2x4x8192.Reduces [0] S4x8192 := by decide
  rw [Host.reduce_eq_fold_single FloatOps.minimumf _ _ reducesTo_S2x4x8192_S4x8192_d0 h h_S_ (ix2 b mm)]
  show (Finset.univ : Finset (Fin 2)).fold min wInf _ = colMin P T b mm
  refine Eq.trans ?_ (colMin_eq_halves P T b mm)
  refine congrArg (fun f : Fin 2 → EReal => Finset.fold min wInf f Finset.univ) (funext fun (k : Fin 2) => ?_)
  show halfColMinArr P T (h.lift (ix2 b mm) k) = halfColMin P T k b mm
  rw [lift0_eq]
  rfl

/-! ## The host tail and the run -/

/-- The host tail's result. -/
theorem tail_eq (c : Dev nD) :
    Pipeline.afterTail₀ cfgs (dats m) 0 (V0 m) [hostOps1] c main_v13
      = Cert.Chamfer.lossOf (Cert.Chamfer.rowMinArr (cloudP m c) (cloudT m c)) (Cert.Chamfer.colMinArr (cloudP m c) (cloudT m c)) := by
  have e2 : Pipeline.withArrays (cfgs 0).spec c (V0 m c) (fun w => (dats m 0 c).arrAt w (cfgs 0).N) (Proc.devRef .tc main_v0_0)
      = rowMinArr (cloudP m c) (cloudT m c) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = halfColMinArr (cloudP m c) (cloudT m c) :=
    (Pipeline.withArrays_arr spec0 launch0.win.arr_inj c _ _ 3).trans (final3 m c)
  unfold Pipeline.afterTail₀
  show StableHlo.after hostOps1 _ (Proc.devRef .tc main_v13) = _
  after_results
  rw [e2, e3, halves_min]
  rfl

/-- THE RUN with its result named. -/
theorem run : θ_run defs (onTc (τ := τ) (main (F := Ideal))) ⟨m, fun _ => 0, ρ⟩ (fun r => ∀ c : Dev nD,
      r.2.mem ((c.tc : Thread nD τ).loc main_v13)
        = Cert.Chamfer.lossOf (Cert.Chamfer.rowMinArr (m ((c.tc : Thread nD τ).loc main_arg0)) (m ((c.tc : Thread nD τ).loc main_arg1)))
            (Cert.Chamfer.colMinArr (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v13 (by decide)).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Final

end
-- ==== Proof.lean ====
/-
  The chamfer loss of two point clouds `[4, 8192, 3]`: a tiled kernel against the direct formula.

  Both programs take, for every batch, the clamped squared distance `max ((|p|² + |q|²) − 2·⟨p, q⟩) 0` between every
  point `p` of the first cloud and every point `q` of the second, the minimum of each row and of each column of that
  8192 × 8192 table, and the mean of the row minima plus the mean of the column minima. The direct formula builds the
  table whole (the inner product by a contraction over the three coordinates). The kernel never builds it: a grid of
  2 × 8 points, each holding 512 points of the first cloud, walks the second cloud in sixteen chunks of 512; each 512 × 512
  tile lowers the point's row minima (a block filled with `+∞` at every point) and a scratch of column minima that is
  filled with `+∞` at the first point of each half of the grid, lowered across the half's eight points and copied out at the
  last; the host then takes the minimum of the two halves.

  Over the extended reals the two agree because a minimum does not depend on how its terms are grouped: a fold of `min`
  is determined by its lower bounds (`c ≤ fold min b f ↔ c ≤ b ∧ ∀ k, c ≤ f k`), the inner product over three coordinates is
  the three products added, and every other operation is the same on both sides. The modules: Spec (the two arrays of
  minima as functions of the clouds), Tail (the means, shared), RefValue (the direct formula computes Spec), PayValue (the
  kernel body's arithmetic at an index), TripValue / LoopValue / LoopIdeal (one trip of the chunk loop, the loop as a
  recurrence, its lower bounds), CaseValue / GridValue (what each grid point leaves, the scratch across a half), Final
  (the output arrays, the minimum over the halves, the kernel's run with its result named).
-/
import proofs.«134601_j6528350290147_1_alg».proof.Defs
import proofs.«134601_j6528350290147_1_alg».proof.Proof.Gen.Kernel
import proofs.«134601_j6528350290147_1_alg».proof.Proof.Gen.Kernel.Skeleton
import proofs.«134601_j6528350290147_1_alg».proof.Proof.Gen.Kernel.Loops
import proofs.«134601_j6528350290147_1_alg».proof.Proof.Gen.Kernel.Launch
import proofs.«134601_j6528350290147_1_alg».proof.Proof.Gen.Kernel.Points
import proofs.«134601_j6528350290147_1_alg».proof.Proof.Gen.Kernel.Frame
import proofs.«134601_j6528350290147_1_alg».proof.Proof.Gen.KernelIdeal
import proofs.«134601_j6528350290147_1_alg».proof.Proof.Gen.KernelIdeal.Skeleton
import proofs.«134601_j6528350290147_1_alg».proof.Proof.Gen.KernelIdeal.Loops
import proofs.«134601_j6528350290147_1_alg».proof.Proof.Gen.KernelIdeal.Launch
import proofs.«134601_j6528350290147_1_alg».proof.Proof.Gen.KernelIdeal.Points
import proofs.«134601_j6528350290147_1_alg».proof.Proof.Gen.KernelIdeal.Frame
import proofs.«134601_j6528350290147_1_alg».proof.Proof.Gen.ReferenceIdeal
import proofs.«134601_j6528350290147_1_alg».proof.Proof.Gen.Pre_finite_inputs
import proofs.«134601_j6528350290147_1_alg».proof.Proof.Gen.ReferenceIdeal.Run
import proofs.«134601_j6528350290147_1_alg».proof.Proof.Gen.ReferenceIdeal.Read
import proofs.«134601_j6528350290147_1_alg».proof.Proof.Spec
import proofs.«134601_j6528350290147_1_alg».proof.Proof.RefValue
import proofs.«134601_j6528350290147_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The direct formula runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the same two arrays of minima of the argument clouds. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
